-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8x2048x1024 .f32) (main_arg1 : FVec F S8x2048x1024 .f32) (main_arg2 : FVec F S8x2048x1024 .f32) (main_arg3 : IVec S8x2048x2048 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S16384x1024 : Shape := ⟨2, ![16384, 1024]⟩
abbrev S1x16384x1024 : Shape := ⟨3, ![1, 16384, 1024]⟩
abbrev S2x16384x1024 : Shape := ⟨3, ![2, 16384, 1024]⟩
abbrev S1x1024x1024 : Shape := ⟨3, ![1, 1024, 1024]⟩
abbrev S2x1024x1024 : Shape := ⟨3, ![2, 1024, 1024]⟩
abbrev S1x1024 : Shape := ⟨2, ![1, 1024]⟩
abbrev S2x1024 : Shape := ⟨2, ![2, 1024]⟩
abbrev S2x1x1024 : Shape := ⟨3, ![2, 1, 1024]⟩
abbrev S1x1x1024 : Shape := ⟨3, ![1, 1, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 35
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16384x1024, .f32⟩
  | .hbm, ⟨14, _⟩ => ⟨S16384x1024, .f32⟩
  | .hbm, ⟨15, _⟩ => ⟨S1x16384x1024, .f32⟩
  | .hbm, ⟨16, _⟩ => ⟨S1x16384x1024, .f32⟩
  | .hbm, ⟨17, _⟩ => ⟨S2x16384x1024, .f32⟩
  | .hbm, ⟨18, _⟩ => ⟨S1x1024x1024, .bf16⟩
  | .hbm, ⟨19, _⟩ => ⟨S1x1024x1024, .bf16⟩
  | .hbm, ⟨20, _⟩ => ⟨S2x1024x1024, .bf16⟩
  | .hbm, ⟨21, _⟩ => ⟨S1x1024, .f32⟩
  | .hbm, ⟨22, _⟩ => ⟨S1x1024, .f32⟩
  | .hbm, ⟨23, _⟩ => ⟨S2x1024, .f32⟩
  | .hbm, ⟨24, _⟩ => ⟨S2x1x1024, .f32⟩
  | .hbm, ⟨25, _⟩ => ⟨S2x16384x1024, .bf16⟩
  | .hbm, ⟨26, _⟩ => ⟨S1x16384x1024, .bf16⟩
  | .hbm, ⟨27, _⟩ => ⟨S16384x1024, .bf16⟩
  | .hbm, ⟨28, _⟩ => ⟨S8x2048x1024, .bf16⟩
  | .hbm, ⟨29, _⟩ => ⟨S1x16384x1024, .bf16⟩
  | .hbm, ⟨30, _⟩ => ⟨S16384x1024, .bf16⟩
  | .hbm, ⟨31, _⟩ => ⟨S8x2048x1024, .bf16⟩
  | .hbm, ⟨32, _⟩ => ⟨S8x2048x2048, .i32⟩
  | .hbm, ⟨33, _⟩ => ⟨S8x2048x1024, .f32⟩
  | .hbm, ⟨34, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1024, .f32⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x2048, .i32⟩
  | .local _ .vmem, ⟨17, _⟩ => ⟨S1x256x2048, .i32⟩
  | .local _ .vmem, ⟨18, _⟩ => ⟨S1x256x1024, .f32⟩
  | .local _ .vmem, ⟨19, _⟩ => ⟨S1x256x1024, .f32⟩
  | .local _ .vmem, ⟨20, _⟩ => ⟨S1x256x2048, .f32⟩
  | .local _ .vmem, ⟨21, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  shapeCasts_S8x2048x1024_S16384x1024 : S8x2048x1024.ShapeCasts S16384x1024
  bcast_S16384x1024_S1x16384x1024_1_2 : S16384x1024.BroadcastsInDim S1x16384x1024 (![1, 2] : Fin 2 → Fin S1x16384x1024.rank)
  concatenates_S1x16384x1024_S1x16384x1024_S2x16384x1024_d0 : Shape.Concatenates [S1x16384x1024, S1x16384x1024] S2x16384x1024 0
  bcast_S1024x1024_S1x1024x1024_1_2 : S1024x1024.BroadcastsInDim S1x1024x1024 (![1, 2] : Fin 2 → Fin S1x1024x1024.rank)
  concatenates_S1x1024x1024_S1x1024x1024_S2x1024x1024_d0 : Shape.Concatenates [S1x1024x1024, S1x1024x1024] S2x1024x1024 0
  bcast_S1024_S1x1024_1 : S1024.BroadcastsInDim S1x1024 (![1] : Fin 1 → Fin S1x1024.rank)
  concatenates_S1x1024_S1x1024_S2x1024_d0 : Shape.Concatenates [S1x1024, S1x1024] S2x1024 0
  bcast_S2x1024_S2x1x1024_0_2 : S2x1024.BroadcastsInDim S2x1x1024 (![0, 2] : Fin 2 → Fin S2x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  slices_S2x16384x1024_S1x16384x1024_0_0_0 : S2x16384x1024.Slices ![0, 0, 0] S1x16384x1024
  shapeCasts_S1x16384x1024_S16384x1024 : S1x16384x1024.ShapeCasts S16384x1024
  shapeCasts_S16384x1024_S8x2048x1024 : S16384x1024.ShapeCasts S8x2048x1024
  slices_S2x16384x1024_S1x16384x1024_1_0_0 : S2x16384x1024.Slices ![1, 0, 0] S1x16384x1024
  natLt_1_32 : 1 < 32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x16384x1024.size a
  hwx0_0 : ∀ i : grid0.Coords, EltTy.bits .f32 = 32 ∨ (Rect.block (s := S2x16384x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .bf16 = 32 ∨ (Rect.block (s := S2x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x1024.size a
  hwx0_2 : ∀ i : grid0.Coords, EltTy.bits .f32 = 32 ∨ (Rect.block (s := S2x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x16384x1024.size a
  hwx0_3 : ∀ i : grid0.Coords, EltTy.bits .bf16 = 32 ∨ (Rect.block (s := S2x16384x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .bf16 = 32 ∨ (Rect.block (s := S8x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x2048x2048.size a
  hwx1_5 : ∀ i : grid1.Coords, EltTy.bits .i32 = 32 ∨ (Rect.block (s := S8x2048x2048) S1x256x2048.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x2048.size a ≤ S8x2048x2048.size a
  hwx1_7 : ∀ i : grid1.Coords, EltTy.bits .f32 = 32 ∨ (Rect.block (s := S8x2048x2048) S1x256x2048.size (cc1_transform_7 i) (hinb1_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v7) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_0) S1x256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23_1) S1x256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x2048x1024, .f32⟩
  | .hbm, ⟨11, _⟩ => ⟨S1x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_v0 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.ProjPayload.lean ====
/-
  The projection call's body at one element: row r, feature e of `x · w + β` over the loaded blocks.
-/
import proofs.«402941_j47433618817588_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjPayload

open Cert.KernelIdeal Cert.KernelIdeal.Gen Idealize.ShloMosaic Idealize.ShloMosaic.ValueIdx

/-- The product's left operand index keeps the row on axis 0. -/
theorem lhs_proj_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The product's left operand index has the contraction coordinate on axis 1. -/
theorem lhs_proj_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The product's right operand index has the contraction coordinate on axis 0. -/
theorem rhs_proj_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The product's right operand index keeps the column on axis 1. -/
theorem rhs_proj_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into a zero accumulator, at row r and column e: the sum over the shared axis. -/
theorem proj_matmul (a b : FVec Ideal S1024x1024 .bf16) (r e : Fin 1024) :
    matmul dot_S1024x1024_S1024x1024_S1024x1024_1_0_0_1_n_n none a b (constant (F := Ideal) S1024x1024 .f32 0x00000000#32) (ix2 r e)
      = ∑ d : Fin 1024, a (ix2 r d) * b (ix2 d e) := by
  refine (Ideal.matmul_constant_zero_apply dot_S1024x1024_S1024x1024_S1024x1024_1_0_0_1_n_n none a b (ix2 r e)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r e) ((ValueIdx.contrEquiv1 dot_S1024x1024_S1024x1024_S1024x1024_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S1024x1024_S1024x1024_S1024x1024_1_0_0_1_n_n.rhsIdx (ix2 r e) ((ValueIdx.contrEquiv1 dot_S1024x1024_S1024x1024_S1024x1024_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er]

theorem proj_payload (x0 : Vec Ideal S1x1024x1024 .f32) (x1 : Vec Ideal S1x1024x1024 .bf16) (x2 : Vec Ideal S1x1x1024 .f32)
    (r e : Fin 1024) :
    k0_pay1 (F := Ideal) x0 x1 x2 (ix3 0 r e) = (∑ d : Fin 1024, x0 (ix3 0 r d) * x1 (ix3 0 d e)) + x2 (ix3 0 0 e) := by
  unfold k0_pay1
  refine (shapeCast_ab_1ab_apply _ shapeCasts_S1024x1024_S1x1024x1024 0 r e).trans ?_
  refine (truncf_apply _ bitsLt_bf16_f32 (ix2 r e)).trans ?_
  refine (addf_apply _ _ (ix2 r e)).trans ?_
  refine congrArg₂ (· + ·) ?_ ?_
  · refine (proj_matmul _ _ r e).trans ?_
    refine Finset.sum_congr rfl fun d _ => ?_
    refine congrArg₂ (· * ·) ?_ ?_
    · exact (truncf_apply _ bitsLt_bf16_f32 (ix2 r d)).trans (shapeCast_1ab_ab_apply x0 shapeCasts_S1x1024x1024_S1024x1024 r d)
    · exact shapeCast_1ab_ab_apply x1 shapeCasts_S1x1024x1024_S1024x1024 d e
  · refine (broadcastTo_1b_ab_apply _ broadcasts_S1x1024_S1024x1024 r e).trans ?_
    exact shapeCast_apply x2 shapeCasts_S1x1x1024_S1x1024 (ix2 (0 : Fin 1) e) (ix3 (0 : Fin 1) (0 : Fin 1) e) (by
      rw [Shape.rowMajor_val_three, Shape.rowMajor_val_two]
      show (0 * 1 + 0) * 1024 + e.val = 0 * 1024 + e.val
      omega)

end Cert.KernelIdeal.ProjPayload

end
-- ==== Proof.ProjRegion.lean ====
/-
  The projection call's output array after its 32 grid points, as one function of the three arrays it reads.
-/
import proofs.«402941_j47433618817588_3_alg».proof.Proof.Gen.KernelIdeal.Frame
import proofs.«402941_j47433618817588_3_alg».proof.Proof.ProjPayload

set_option maxRecDepth 16384

noncomputable section

namespace Cert.KernelIdeal.ProjRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Both stacked projections at once: entry (p, r, e) is row r of stack p through layer p. -/
def stacked (xs : S2x16384x1024.Idx → EReal) (ws : S2x1024x1024.Idx → EReal) (bs : S2x1x1024.Idx → EReal) : S2x16384x1024.Idx → EReal :=
  fun i => (∑ d : Fin 1024, xs (ix3 (i 0) (i 1) d) * ws (ix3 (i 0) d (i 2))) + bs (ix3 (i 0) 0 (i 2))

/-- The unit offsets are the zero offsets. -/
theorem zero3 : (![0, 0, 0] : Fin 3 → Nat) = fun _ => 0 :=
  funext fun a => match a with | ⟨0, _⟩ => rfl | ⟨1, _⟩ => rfl | ⟨2, _⟩ => rfl

/-- The block index maps over the grid: every input's stack index is the output's, the rows' block index is the
    output's, the layer's and the offsets' blocks are whole; the output's block indices stay in their ranges. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 1 ∧ win0_3.index t (1 : Fin 3) ≤ 15 ∧ win0_3.index t (2 : Fin 3) = 0 :=
  (by decide +kernel : ∀ t : Fin grid0.N, _)

/-- Every block of the output is some point's. -/
theorem index_onto : ∀ (p : Fin 2) (q : Fin 16), ∃ t : Fin cfg0.N, win0_3.index t = ![p.val, q.val, 0] :=
  (by decide +kernel : ∀ (p : Fin 2) (q : Fin 16), ∃ t : Fin grid0.N, win0_3.index t = ![p.val, q.val, 0])

/-- One element of an output block: when the three loaded blocks are the rows, the layer and the offsets that the
    array index names, the body's value there is the stacked projection at that index. -/
theorem point_eq (xs : S2x16384x1024.Idx → EReal) (ws : S2x1024x1024.Idx → EReal) (bs : S2x1x1024.Idx → EReal)
    (x0 : Vec Ideal S1x1024x1024 .f32) (x1 : Vec Ideal S1x1024x1024 .bf16) (x2 : Vec Ideal S1x1x1024 .f32)
    (i : S2x16384x1024.Idx) (r e : Fin 1024)
    (h0 : ∀ d : Fin 1024, x0 (ix3 0 r d) = xs (ix3 (i 0) (i 1) d))
    (h1 : ∀ d : Fin 1024, x1 (ix3 0 d e) = ws (ix3 (i 0) d (i 2)))
    (h2 : x2 (ix3 0 0 e) = bs (ix3 (i 0) 0 (i 2))) :
    k0_pay1 (F := Ideal) x0 x1 x2 (ix3 0 r e) = stacked xs ws bs i := by
  refine (ProjPayload.proj_payload x0 x1 x2 r e).trans ?_
  unfold stacked
  refine congrArg₂ (· + ·) (Finset.sum_congr rfl fun d _ => ?_) h2
  exact congrArg₂ (· * ·) (h0 d) (h1 d)

/-- What point t writes back is its block of the stacked projection of the three arrays as the call finds them. -/
theorem flushed_eq (c : Dev nD) (t : Fin cfg0.N) :
    (dat0 (F := Ideal) V c).flushed 3 t
      = ((cfg0.win 3).blk t).view.read (Elt Ideal) (stacked (V c main_v7) (V c main_v10) (V c main_v14)) := by
  show (cfg0.win 3).cut (grid0.coords t) ((dat0 V c).after 3 t) = _
  rw [after0_3]
  unfold out0_3
  rw [View.canon_unit_zero zero3]
  simp only [View.ld_unit_zero (S := S1x1024x1024) zero3, View.ld_unit_zero (S := S1x1x1024) zero3]
  obtain ⟨a0, a1, a2, b0, b1, b2, c0, c1, c2, o0, o1, o2⟩ := index_facts t
  funext (y : S1x1024x1024.Idx)
  obtain ⟨u, r, e, rfl⟩ : ∃ (u : Fin 1) (r e : Fin 1024), y = ix3 u r e := ⟨y 0, y 1, y 2, eq_ix3 y⟩
  obtain rfl : u = 0 := Fin.ext (by omega)
  show k0_pay1 (F := Ideal) (iblk0 V c 0 t) (iblk0 V c 1 t) (iblk0 V c 2 t) (ix3 0 r e)
    = stacked (V c main_v7) (V c main_v10) (V c main_v14) (((cfg0.win 3).blk t).view.emb (ix3 0 r e))
  have hr : r.val < 1024 := r.isLt
  have he : e.val < 1024 := e.isLt
  refine point_eq (V c main_v7) (V c main_v10) (V c main_v14) (iblk0 V c 0 t) (iblk0 V c 1 t) (iblk0 V c 2 t)
    (((cfg0.win 3).blk t).view.emb (ix3 0 r e)) r e (fun d => ?_) (fun d => ?_) ?_
  · show V c main_v7 (((cfg0.win 0).blk t).view.emb (ix3 0 r d)) = V c main_v7 _
    refine congrArg (V c main_v7) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * r.val = win0_3.index t (1 : Fin 3) * 1024 + 1 * r.val; omega
    | ⟨2, _⟩ => show win0_0.index t (2 : Fin 3) * 1024 + 1 * d.val = d.val; omega
  · show V c main_v10 (((cfg0.win 1).blk t).view.emb (ix3 0 d e)) = V c main_v10 _
    refine congrArg (V c main_v10) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 1024 + 1 * d.val = d.val; omega
    | ⟨2, _⟩ => show win0_1.index t (2 : Fin 3) * 1024 + 1 * e.val = win0_3.index t (2 : Fin 3) * 1024 + 1 * e.val; omega
  · show V c main_v14 (((cfg0.win 2).blk t).view.emb (ix3 0 0 e)) = V c main_v14 _
    refine congrArg (V c main_v14) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 1 + 1 * 0 = 0; omega
    | ⟨2, _⟩ => show win0_2.index t (2 : Fin 3) * 1024 + 1 * e.val = win0_3.index t (2 : Fin 3) * 1024 + 1 * e.val; omega

/-- An index of the output array is in point t's block iff each coordinate is in the block's range on its axis. -/
theorem mem_block (t : Fin cfg0.N) (i : S2x16384x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v15).slice (win0_3.rect t)).set ↔ _
  rw [View.set_slice_whole, Rect.mem_set_unit]
  exact Iff.rfl

/-- Every index (p, r, e) of the output array is in the block of the point with block indices (p, r / 1024, 0). -/
theorem covered (i : S2x16384x1024.Idx) :
    ∃ t : Fin cfg0.N, (cfg0.win 3).flush t = true ∧ i ∈ ((cfg0.win 3).blk t).view.set := by
  have hi0 : (i 0).val < 2 := (i 0).isLt
  have hi1 : (i 1).val < 16384 := (i 1).isLt
  have hi2 : (i 2).val < 1024 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

theorem final (c : Dev nD) :
    (dat0 (F := Ideal) V c).arrAt 3 cfg0.N = stacked (V c main_v7) (V c main_v10) (V c main_v14) := by
  exact (dat0 (F := Ideal) V c).arrAt_eq_of_cover 3 (stacked (V c main_v7) (V c main_v10) (V c main_v14))
    (fun t _ => flushed_eq V c t) covered

end Cert.KernelIdeal.ProjRegion

end
-- ==== Proof.AttnRow.lean ====
/-
  Masked scaled dot-product attention for ONE query row, over the extended reals.

  A query row `x` (1024 features) is projected, `q e = (∑ d, x d · w (d, e)) + β e`; its score against key row `k`
  is the inner product `∑ e, q e · K k e`; a cleared mask bit replaces the score by the fill (the word of -1e32);
  the logit is that value divided by 32 (the square root of the feature count 1024); the weights are the softmax of
  the 2048 logits taken against their maximum (a fold of `max` from -∞); the output feature `e` is the weighted sum
  `∑ k, weight k · V k e` of the value rows. A whole layer is this row function at every batch and query position,
  with `K` and `V` the same projection of the key and value inputs.

  The three small laws at the end are what joins two spellings of this function: multiplying by 2⁻⁵ is dividing by 32
  on every extended real; a fold of `max` started at -∞ is not raised by one more `max` with -∞; and widening a mask bit
  to a 32-bit word and testing the word against zero returns the bit.
-/
import Idealize.ShloMosaic.PureOps.Ideal
import Idealize.ShloMosaic.PureOps.Vector
import Idealize.ShloMosaic.Lib.ValueIdx
import Mathlib.Data.Finset.Fold

noncomputable section

namespace Attn

open Idealize.ShloMosaic Idealize.ShloMosaic.ValueIdx

/-- A weight matrix [1024, 1024] and a bias [1024], as the programs hold them. -/
abbrev Wgt : Shape := ⟨2, ![1024, 1024]⟩
abbrev Bias : Shape := ⟨1, ![1024]⟩

/-- What a masked-out score is replaced by: the f32 word of -1e32 (both programs spell this word). -/
abbrev fill : EReal := Ideal.ofBits .f32 0xF49DC5AE#32
/-- The f32 word of -∞, from which a row's maximum is folded. -/
abbrev negInf : EReal := Ideal.ofBits .f32 0xFF800000#32
/-- The f32 word of 32. -/
abbrev thirtyTwo : EReal := Ideal.ofBits .f32 0x42000000#32

/-- One row through a linear layer: feature `e` of `x · w + β`. -/
def projRow (x : Fin 1024 → EReal) (w : Wgt.Idx → EReal) (β : Bias.Idx → EReal) (e : Fin 1024) : EReal :=
  (∑ d : Fin 1024, x d * w (ix2 d e)) + β (ix1 e)

/-- The logit of a projected query row `q` against key row `k`: the inner product where the mask bit is set, the fill
    where it is cleared, divided by 32. -/
def logitRow (q : Fin 1024 → EReal) (K : Fin 2048 → Fin 1024 → EReal) (msk : Fin 2048 → BitVec 1) (k : Fin 2048) : EReal :=
  Ideal.div (Scalar.select (msk k) (∑ e : Fin 1024, q e * K k e) fill) thirtyTwo

/-- A row's maximum: the fold of `max` over its 2048 entries from -∞. -/
def rowMax (L : Fin 2048 → EReal) : EReal := (Finset.univ : Finset (Fin 2048)).fold max negInf L

/-- The softmax of a row of logits, taken against the row's maximum. -/
def softmaxRow (L : Fin 2048 → EReal) (k : Fin 2048) : EReal :=
  Ideal.div (Ideal.exp (L k - rowMax L)) (∑ k' : Fin 2048, Ideal.exp (L k' - rowMax L))

/-- The attention weights of one query row. -/
def weightsRow (x : Fin 1024 → EReal) (w : Wgt.Idx → EReal) (β : Bias.Idx → EReal) (K : Fin 2048 → Fin 1024 → EReal)
    (msk : Fin 2048 → BitVec 1) : Fin 2048 → EReal :=
  softmaxRow (logitRow (projRow x w β) K msk)

/-- The attention output of one query row: the weights' combination of the value rows. -/
def outRow (x : Fin 1024 → EReal) (w : Wgt.Idx → EReal) (β : Bias.Idx → EReal) (K V : Fin 2048 → Fin 1024 → EReal)
    (msk : Fin 2048 → BitVec 1) (e : Fin 1024) : EReal :=
  ∑ k : Fin 2048, weightsRow x w β K msk k * V k e

/-! ## The layer: the row function at every batch and query position -/

/-- Activations [8, 2048, 1024] (batch, position, feature) and the mask / the weights [8, 2048, 2048]
    (batch, query position, key position). -/
abbrev Act : Shape := ⟨3, ![8, 2048, 1024]⟩
abbrev Scr : Shape := ⟨3, ![8, 2048, 2048]⟩

/-- The key (or value) matrix of batch `b`: the projection of that batch's 2048 input rows. -/
def projMat (x : Act.Idx → EReal) (w : Wgt.Idx → EReal) (β : Bias.Idx → EReal) (b : Fin 8) : Fin 2048 → Fin 1024 → EReal :=
  fun k e => projRow (fun d => x (ix3 b k d)) w β e

/-- The layer's attention weights: at (b, q, k), query row (b, q) against batch b's projected keys under mask row (b, q). -/
def weightsArr (qx kx : Act.Idx → EReal) (msk : Scr.Idx → BitVec 1) (wq : Wgt.Idx → EReal) (bq : Bias.Idx → EReal)
    (wk : Wgt.Idx → EReal) (bk : Bias.Idx → EReal) : Scr.Idx → EReal :=
  fun i => weightsRow (fun d => qx (ix3 (i 0) (i 1) d)) wq bq (projMat kx wk bk (i 0)) (fun k => msk (ix3 (i 0) (i 1) k)) (i 2)

/-- The layer's output: at (b, q, e), the weights of row (b, q) combining batch b's projected values. -/
def outArr (qx kx vx : Act.Idx → EReal) (msk : Scr.Idx → BitVec 1) (wq : Wgt.Idx → EReal) (bq : Bias.Idx → EReal)
    (wk : Wgt.Idx → EReal) (bk : Bias.Idx → EReal) (wv : Wgt.Idx → EReal) (bv : Bias.Idx → EReal) : Act.Idx → EReal :=
  fun i => outRow (fun d => qx (ix3 (i 0) (i 1) d)) wq bq (projMat kx wk bk (i 0)) (projMat vx wv bv (i 0))
    (fun k => msk (ix3 (i 0) (i 1) k)) (i 2)

/-! ## The laws that join two spellings -/

theorem ofBits_thirtyTwo : thirtyTwo = ((32 : ℝ) : EReal) := by
  simp [thirtyTwo, Ideal.ofBits, Ideal.ieee, -EReal.coe_mul]; norm_num

theorem ofBits_inv_thirtyTwo : Ideal.ofBits .f32 0x3D000000#32 = ((1 / 32 : ℝ) : EReal) := by
  simp [Ideal.ofBits, Ideal.ieee, -EReal.coe_mul]; norm_num

/-- Multiplying by the word of 2⁻⁵ is dividing by the word of 32, at every extended real. -/
theorem mul_inv_eq_div (x : EReal) : x * Ideal.ofBits .f32 0x3D000000#32 = Ideal.div x thirtyTwo := by
  rw [ofBits_thirtyTwo, ofBits_inv_thirtyTwo, Ideal.div_coe (by norm_num : (32 : ℝ) ≠ 0)]

/-- A fold of `max` started at `a` is at least `a`, so one more `max` with `a` changes nothing. -/
theorem max_fold_max {ι : Type} (s : Finset ι) (a : EReal) (f : ι → EReal) : max a (s.fold max a f) = s.fold max a f :=
  max_eq_right ((Finset.le_fold_max a).mpr (Or.inl le_rfl))

/-- A mask bit widened to 32 bits is a nonzero word exactly when the bit is set. -/
theorem ne_zero_setWidth (b : BitVec 1) : IntOp.cmpi .ne (b.setWidth 32) 0#32 = b := by
  revert b; decide

end Attn

end
-- ==== Proof.AttnPayload.lean ====
/-
  The attention call's body at one element: the weights of block row r against key k, and feature e of their
  combination of the value rows.
-/
import proofs.«402941_j47433618817588_3_alg».proof.Proof.Gen.KernelIdeal.Skeleton
import proofs.«402941_j47433618817588_3_alg».proof.Proof.AttnRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnPayload

open Cert.KernelIdeal Cert.KernelIdeal.Gen Idealize.ShloMosaic Idealize.ShloMosaic.ValueIdx

/-! ## A column kept after a row reduction: [a] as [a, 1], and [a, 1] spread over [a, b] -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic [256] spread back over its rows [256, 2048] reads, at (r, k), the statistic of row r. -/
theorem column_spread_apply (v : FVec Ideal S256 .f32) (hc : S256.ShapeCasts S256x1) (hb : S256x1.Broadcasts S256x2048)
    (r : Fin 256) (k : Fin 2048) :
    broadcastTo S256x2048 (shapeCast S256x1 v hc) hb (ix2 r k) = v (ix1 r) :=
  (broadcastTo_a1_ab_apply _ hb r k).trans (shapeCast_a_a1_apply v hc r 0)

/-! ## The softmax of one row: maximum, shift, exponential, sum, quotient -/

/-- The index a reduction over the key axis inserts coordinate k at, from row r: (r, k). -/
theorem lift_row (h : S256x2048.Reduces [1] S256) (r : Fin 256) (k : Fin 2048) : h.lift (ix1 r) k = ix2 r k :=
  funext fun ax => Fin.ext (by
    match ax with
    | ⟨0, _⟩ => rfl
    | ⟨1, _⟩ => rfl)

/-- The maximum over the key axis, at row r: the fold of max from -∞ over the row's 2048 entries. -/
theorem row_max_apply (L : FVec Ideal S256x2048 .f32) (h : S256x2048.Reduces [1] S256) (hφ : FKind.Formats .f32)
    (hacc : (0xFF800000#32 : BitVec 32) = FKind.maximumf.neutral .f32 hφ) (r : Fin 256) :
    multiReduction (F := Ideal) .maximumf [1] S256 L 0xFF800000#32 h hφ hacc (ix1 r) = Attn.rowMax (fun k => L (ix2 r k)) := by
  refine (Ideal.multiReduction_maximumf_single L 0xFF800000#32 h hφ hacc (ix1 r)).trans ?_
  unfold Attn.rowMax
  exact congrArg (fun f : Fin 2048 → EReal => (Finset.univ : Finset (Fin 2048)).fold max Attn.negInf f)
    (funext fun k => congrArg L (lift_row h r k))

/-- The sum over the key axis, at row r: the sum of the row's 2048 entries. -/
theorem row_sum_apply (E : FVec Ideal S256x2048 .f32) (h : S256x2048.Reduces [1] S256) (hφ : FKind.Formats .f32)
    (hacc : (0x00000000#32 : BitVec 32) = FKind.add.neutral .f32 hφ) (r : Fin 256) :
    multiReduction (F := Ideal) .add [1] S256 E 0x00000000#32 h hφ hacc (ix1 r) = ∑ k : Fin 2048, E (ix2 r k) := by
  refine (Ideal.multiReduction_add_single E 0x00000000#32 h hφ hacc (ix1 r)).trans ?_
  exact Finset.sum_congr rfl fun k _ => congrArg E (lift_row h r k)

/-- The shifted exponential of a logit block at (r, k): exp of the logit less its row's maximum. -/
theorem shifted_exp_apply (L : FVec Ideal S256x2048 .f32) (h : S256x2048.Reduces [1] S256) (hc : S256.ShapeCasts S256x1)
    (hb : S256x1.Broadcasts S256x2048) (hφ : FKind.Formats .f32)
    (hmax : (0xFF800000#32 : BitVec 32) = FKind.maximumf.neutral .f32 hφ) (r : Fin 256) (k : Fin 2048) :
    exp (subf L (broadcastTo S256x2048 (shapeCast S256x1
        (multiReduction (F := Ideal) .maximumf [1] S256 L 0xFF800000#32 h hφ hmax) hc) hb)) (ix2 r k)
      = Ideal.exp (L (ix2 r k) - Attn.rowMax (fun k' => L (ix2 r k'))) := by
  show Ideal.exp (L (ix2 r k) - broadcastTo S256x2048 (shapeCast S256x1
        (multiReduction (F := Ideal) .maximumf [1] S256 L 0xFF800000#32 h hφ hmax) hc) hb (ix2 r k)) = _
  rw [column_spread_apply, row_max_apply]

/-- The softmax block of a logit block at (r, k): the softmax of row r at k. -/
theorem softmax_apply (L : FVec Ideal S256x2048 .f32) (h : S256x2048.Reduces [1] S256) (hc : S256.ShapeCasts S256x1)
    (hb : S256x1.Broadcasts S256x2048) (hφ : FKind.Formats .f32)
    (hmax : (0xFF800000#32 : BitVec 32) = FKind.maximumf.neutral .f32 hφ)
    (hadd : (0x00000000#32 : BitVec 32) = FKind.add.neutral .f32 hφ) (r : Fin 256) (k : Fin 2048) :
    divf (exp (subf L (broadcastTo S256x2048 (shapeCast S256x1
          (multiReduction (F := Ideal) .maximumf [1] S256 L 0xFF800000#32 h hφ hmax) hc) hb)))
        (broadcastTo S256x2048 (shapeCast S256x1
          (multiReduction (F := Ideal) .add [1] S256
            (exp (subf L (broadcastTo S256x2048 (shapeCast S256x1
              (multiReduction (F := Ideal) .maximumf [1] S256 L 0xFF800000#32 h hφ hmax) hc) hb)))
            0x00000000#32 h hφ hadd) hc) hb) (ix2 r k)
      = Attn.softmaxRow (fun k' => L (ix2 r k')) k := by
  refine (divf_apply _ _ (ix2 r k)).trans ?_
  unfold Attn.softmaxRow
  rw [column_spread_apply, row_sum_apply, shifted_exp_apply]
  exact congrArg (Ideal.div _) (Finset.sum_congr rfl fun k' _ => shifted_exp_apply L h hc hb hφ hmax r k')

/-! ## The projected query row: the block times the weight matrix, plus the bias -/

theorem lhs_xw_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_xw_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_xw_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_xw_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a [256, 1024] block with a [1024, 1024] matrix into zero, at (r, e): the sum over the input feature. -/
theorem matmul_xw_apply (a : FVec Ideal S256x1024 .bf16) (b : FVec Ideal S1024x1024 .bf16) (r : Fin 256) (e : Fin 1024) :
    matmul (F := Ideal) dot_S256x1024_S1024x1024_S256x1024_1_0_0_1_n_n none a b (constant (F := Ideal) S256x1024 .f32 0x00000000#32) (ix2 r e)
      = ∑ d : Fin 1024, a (ix2 r d) * b (ix2 d e) := by
  refine (Ideal.matmul_constant_zero_apply _ none a b (ix2 r e)).trans ?_
  rw [← Equiv.sum_comp (ValueIdx.contrEquiv1 dot_S256x1024_S1024x1024_S256x1024_1_0_0_1_n_n 1024 rfl rfl).symm]
  refine Finset.sum_congr rfl fun d _ => ?_
  have hd := ValueIdx.contrEquiv1_symm_val dot_S256x1024_S1024x1024_S256x1024_1_0_0_1_n_n 1024 rfl rfl d
  have el : dot_S256x1024_S1024x1024_S256x1024_1_0_0_1_n_n.lhsIdx (ix2 r e) ((ValueIdx.contrEquiv1 dot_S256x1024_S1024x1024_S256x1024_1_0_0_1_n_n 1024 rfl rfl).symm d) = ix2 r d := funext fun ax => Fin.ext (by
    match ax with
    | ⟨0, _⟩ => exact lhs_xw_0 _ _
    | ⟨1, _⟩ => exact (lhs_xw_1 _ _).trans hd)
  have er : dot_S256x1024_S1024x1024_S256x1024_1_0_0_1_n_n.rhsIdx (ix2 r e) ((ValueIdx.contrEquiv1 dot_S256x1024_S1024x1024_S256x1024_1_0_0_1_n_n 1024 rfl rfl).symm d) = ix2 d e := funext fun ax => Fin.ext (by
    match ax with
    | ⟨0, _⟩ => exact (rhs_xw_0 _ _).trans hd
    | ⟨1, _⟩ => exact rhs_xw_1 _ _)
  rw [el, er]

/-- The projected query block at (r, e): feature e of row r through the linear layer. -/
theorem proj_apply (x0 : FVec Ideal S1x256x1024 .f32) (x1 : FVec Ideal S1024x1024 .bf16) (x2 : FVec Ideal S1024 .f32)
    (h0 : S1x256x1024.ShapeCasts S256x1024) (h1 : S1024x1024.ShapeCasts S1024x1024) (h2 : S1024.ShapeCasts S1x1024)
    (hb : S1x1024.Broadcasts S256x1024) (hlt : FTy.bits .bf16 < FTy.bits .f32) (r : Fin 256) (e : Fin 1024) :
    (truncf .bf16 (addf
        (matmul (F := Ideal) dot_S256x1024_S1024x1024_S256x1024_1_0_0_1_n_n none
          (truncf .bf16 (shapeCast S256x1024 x0 h0) hlt : FVec Ideal S256x1024 .bf16) (shapeCast S1024x1024 x1 h1)
          (constant (F := Ideal) S256x1024 .f32 0x00000000#32))
        (broadcastTo S256x1024 (shapeCast S1x1024 x2 h2) hb)) hlt : FVec Ideal S256x1024 .bf16) (ix2 r e)
      = Attn.projRow (fun d => x0 (ix3 0 r d)) x1 x2 e := by
  show matmul (F := Ideal) dot_S256x1024_S1024x1024_S256x1024_1_0_0_1_n_n none
          (truncf .bf16 (shapeCast S256x1024 x0 h0) hlt : FVec Ideal S256x1024 .bf16) (shapeCast S1024x1024 x1 h1)
          (constant (F := Ideal) S256x1024 .f32 0x00000000#32) (ix2 r e)
        + broadcastTo S256x1024 (shapeCast S1x1024 x2 h2) hb (ix2 r e) = _
  rw [matmul_xw_apply, shapeCast_self, broadcastTo_1b_ab_apply, shapeCast_a_1a_apply]
  unfold Attn.projRow
  exact congrArg (· + x2 (ix1 e)) (Finset.sum_congr rfl fun d _ =>
    congrArg (· * x1 (ix2 d e)) (shapeCast_1ab_ab_apply x0 h0 r d))

/-! ## The score against a key row: contraction over the feature axis of both operands -/

theorem lhs_qk_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_qk_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhs_qk_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_qk_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The product of a [256, 1024] block with the transpose of a [2048, 1024] one into zero, at (r, k): the inner product of
    row r of the first with row k of the second. -/
theorem matmul_qk_apply (a : FVec Ideal S256x1024 .bf16) (b : FVec Ideal S2048x1024 .bf16) (r : Fin 256) (k : Fin 2048) :
    matmul (F := Ideal) dot_S256x1024_S2048x1024_S256x2048_1_1_0_0_n_n none a b (constant (F := Ideal) S256x2048 .f32 0x00000000#32) (ix2 r k)
      = ∑ e : Fin 1024, a (ix2 r e) * b (ix2 k e) := by
  refine (Ideal.matmul_constant_zero_apply _ none a b (ix2 r k)).trans ?_
  rw [← Equiv.sum_comp (ValueIdx.contrEquiv1 dot_S256x1024_S2048x1024_S256x2048_1_1_0_0_n_n 1024 rfl rfl).symm]
  refine Finset.sum_congr rfl fun e _ => ?_
  have he := ValueIdx.contrEquiv1_symm_val dot_S256x1024_S2048x1024_S256x2048_1_1_0_0_n_n 1024 rfl rfl e
  have el : dot_S256x1024_S2048x1024_S256x2048_1_1_0_0_n_n.lhsIdx (ix2 r k) ((ValueIdx.contrEquiv1 dot_S256x1024_S2048x1024_S256x2048_1_1_0_0_n_n 1024 rfl rfl).symm e) = ix2 r e := funext fun ax => Fin.ext (by
    match ax with
    | ⟨0, _⟩ => exact lhs_qk_0 _ _
    | ⟨1, _⟩ => exact (lhs_qk_1 _ _).trans he)
  have er : dot_S256x1024_S2048x1024_S256x2048_1_1_0_0_n_n.rhsIdx (ix2 r k) ((ValueIdx.contrEquiv1 dot_S256x1024_S2048x1024_S256x2048_1_1_0_0_n_n 1024 rfl rfl).symm e) = ix2 k e := funext fun ax => Fin.ext (by
    match ax with
    | ⟨0, _⟩ => exact rhs_qk_0 _ _
    | ⟨1, _⟩ => exact (rhs_qk_1 _ _).trans he)
  rw [el, er]

/-- The score block at (r, k): the inner product of projected row r with key row k. -/
theorem score_apply (q : FVec Ideal S256x1024 .bf16) (x3 : FVec Ideal S1x2048x1024 .bf16)
    (h3 : S1x2048x1024.ShapeCasts S2048x1024) (r : Fin 256) (k : Fin 2048) :
    matmul (F := Ideal) dot_S256x1024_S2048x1024_S256x2048_1_1_0_0_n_n none q (shapeCast S2048x1024 x3 h3 : FVec Ideal S2048x1024 .bf16)
        (constant (F := Ideal) S256x2048 .f32 0x00000000#32) (ix2 r k)
      = ∑ e : Fin 1024, q (ix2 r e) * x3 (ix3 0 k e) := by
  rw [matmul_qk_apply]
  exact Finset.sum_congr rfl fun e _ => congrArg (q (ix2 r e) * ·) (shapeCast_1ab_ab_apply x3 h3 k e)

/-! ## The logit: the score where the mask word is nonzero, the fill where it is zero, over 32 -/

/-- The masked and scaled score block at (r, k). -/
theorem logit_apply (s : FVec Ideal S256x2048 .f32) (x5 : IVec S1x256x2048 32) (h5 : S1x256x2048.ShapeCasts S256x2048)
    (r : Fin 256) (k : Fin 2048) :
    mulf (select (cmpi .ne (shapeCast S256x2048 x5 h5 : IVec S256x2048 32) (constantI S256x2048 32 0#32)) s
          (broadcast S256x2048 (Scalar.ofBits (F := Ideal) .f32 0xF49DC5AE#32)))
        (broadcast S256x2048 (Scalar.ofBits (F := Ideal) .f32 0x3D000000#32)) (ix2 r k)
      = Ideal.div (Scalar.select (IntOp.cmpi .ne (x5 (ix3 0 r k)) 0#32) (s (ix2 r k)) Attn.fill) Attn.thirtyTwo := by
  show Scalar.select (IntOp.cmpi .ne ((shapeCast S256x2048 x5 h5 : IVec S256x2048 32) (ix2 r k)) 0#32) (s (ix2 r k)) Attn.fill
      * Ideal.ofBits .f32 0x3D000000#32 = _
  rw [Attn.mul_inv_eq_div, shapeCast_1ab_ab_apply]

/-! ## The weights block at (r, k) -/

theorem weights_payload (x0 : Vec Ideal S1x256x1024 .f32) (x1 : Vec Ideal S1024x1024 .bf16) (x2 : Vec Ideal S1024 .f32)
    (x3 : Vec Ideal S1x2048x1024 .bf16) (x5 : Vec Ideal S1x256x2048 .i32) (r : Fin 256) (k : Fin 2048) :
    k1_pay4 (F := Ideal) x0 x1 x2 x3 x5 (ix2 r k)
      = Attn.weightsRow (fun d => x0 (ix3 0 r d)) x1 x2 (fun k' e => x3 (ix3 0 k' e))
          (fun k' => IntOp.cmpi .ne (x5 (ix3 0 r k')) 0#32) k := by
  unfold k1_pay4
  refine (softmax_apply _ _ _ _ _ _ _ r k).trans ?_
  unfold Attn.weightsRow
  refine congrArg (fun L : Fin 2048 → EReal => Attn.softmaxRow L k) (funext fun k' => ?_)
  refine (logit_apply _ x5 _ r k').trans ?_
  unfold Attn.logitRow
  refine congrArg (fun s : EReal =>
    Ideal.div (Scalar.select (IntOp.cmpi .ne (x5 (ix3 0 r k')) 0#32) s Attn.fill) Attn.thirtyTwo) ?_
  refine (score_apply _ x3 _ r k').trans ?_
  exact Finset.sum_congr rfl fun e _ => congrArg (· * x3 (ix3 0 k' e)) (proj_apply x0 x1 x2 _ _ _ _ _ r e)

/-! The weights times the value rows: contraction over the key axis. -/

theorem lhs_wv_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_wv_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_wv_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_wv_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The product of a [256, 2048] matrix with a [2048, 1024] one into zero, at (r, e): the sum over the shared axis. -/
theorem matmul_wv_apply (a : FVec Ideal S256x2048 .bf16) (b : FVec Ideal S2048x1024 .bf16) (r : Fin 256) (e : Fin 1024) :
    matmul (F := Ideal) dot_S256x2048_S2048x1024_S256x1024_1_0_0_1_n_n none a b (constant (F := Ideal) S256x1024 .f32 0x00000000#32) (ix2 r e)
      = ∑ k : Fin 2048, a (ix2 r k) * b (ix2 k e) := by
  refine (Ideal.matmul_constant_zero_apply _ none a b (ix2 r e)).trans ?_
  rw [← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 r e) ((ValueIdx.contrEquiv1 dot_S256x2048_S2048x1024_S256x1024_1_0_0_1_n_n 2048 rfl rfl).symm k) = ix2 r k := funext fun ax => Fin.ext (by
    match ax with
    | ⟨0, _⟩ => exact lhs_wv_0 _ _
    | ⟨1, _⟩ => exact (lhs_wv_1 _ _).trans hk)
  have er : dot_S256x2048_S2048x1024_S256x1024_1_0_0_1_n_n.rhsIdx (ix2 r e) ((ValueIdx.contrEquiv1 dot_S256x2048_S2048x1024_S256x1024_1_0_0_1_n_n 2048 rfl rfl).symm k) = ix2 k e := funext fun ax => Fin.ext (by
    match ax with
    | ⟨0, _⟩ => exact (rhs_wv_0 _ _).trans hk
    | ⟨1, _⟩ => exact rhs_wv_1 _ _)
  rw [el, er]

theorem out_payload (v14 : FVec Ideal S2048x1024 .bf16) (v31 : FVec Ideal S256x2048 .f32) (r : Fin 256) (e : Fin 1024) :
    k1_pay2 (F := Ideal) v14 v31 (ix3 0 r e) = ∑ k : Fin 2048, v31 (ix2 r k) * v14 (ix2 k e) := by
  unfold k1_pay2
  refine (shapeCast_ab_1ab_apply _ _ 0 r e).trans ?_
  exact matmul_wv_apply _ v14 r e

theorem store_cast_apply (v31 : FVec Ideal S256x2048 .f32) (r : Fin 256) (k : Fin 2048) :
    k1_pay1 (F := Ideal) v31 (ix3 0 r k) = v31 (ix2 r k) := by
  unfold k1_pay1
  exact shapeCast_ab_1ab_apply v31 _ 0 r k

theorem value_cast_apply (v13 : Vec Ideal S1x2048x1024 .bf16) (k : Fin 2048) (e : Fin 1024) :
    k1_pay3 (F := Ideal) v13 (ix2 k e) = v13 (ix3 0 k e) := by
  unfold k1_pay3
  exact shapeCast_1ab_ab_apply v13 _ k e

end Cert.KernelIdeal.AttnPayload

end
-- ==== Proof.AttnRegion.lean ====
/-
  The attention call's two output arrays after its 64 grid points, each as one function of the six arrays it reads.
-/
import proofs.«402941_j47433618817588_3_alg».proof.Proof.Gen.KernelIdeal.Frame
import proofs.«402941_j47433618817588_3_alg».proof.Proof.AttnPayload

set_option maxRecDepth 16384

noncomputable section

namespace Cert.KernelIdeal.AttnRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The mask row (b, q) the call sees: the 32-bit mask words tested against zero. -/
abbrev maskRow (A5 : S8x2048x2048.Idx → BitVec 32) (b : Fin 8) (q : Fin 2048) : Fin 2048 → BitVec 1 :=
  fun k => IntOp.cmpi .ne (A5 (ix3 b q k)) 0#32

/-- The weights array: at (b, q, k) the row function of query row (b, q), the key array's batch b, mask row (b, q). -/
def weightsOf (A0 : S8x2048x1024.Idx → EReal) (A1 : S1024x1024.Idx → EReal) (A2 : S1024.Idx → EReal)
    (A3 : S8x2048x1024.Idx → EReal) (A5 : S8x2048x2048.Idx → BitVec 32) : S8x2048x2048.Idx → EReal :=
  fun i => Attn.weightsRow (fun d => A0 (ix3 (i 0) (i 1) d)) A1 A2 (fun k e => A3 (ix3 (i 0) k e)) (maskRow A5 (i 0) (i 1)) (i 2)

/-- The output array: at (b, q, e) the weights of row (b, q) combining the value array's batch b. -/
def outOf (A0 : S8x2048x1024.Idx → EReal) (A1 : S1024x1024.Idx → EReal) (A2 : S1024.Idx → EReal)
    (A3 A4 : S8x2048x1024.Idx → EReal) (A5 : S8x2048x2048.Idx → BitVec 32) : S8x2048x1024.Idx → EReal :=
  fun i => Attn.outRow (fun d => A0 (ix3 (i 0) (i 1) d)) A1 A2 (fun k e => A3 (ix3 (i 0) k e)) (fun k e => A4 (ix3 (i 0) k e))
    (maskRow A5 (i 0) (i 1)) (i 2)

/-! ## The index maps over the grid -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The index maps over the grid: point t = (b, j) reads query tile (b, j), the whole weight and bias, batch b of keys and values, mask tile (b, j), and writes tiles (b, j). -/
theorem index_facts : ∀ t : Fin cfg1.N,
    (win1_7.index t (0 : Fin 3) ≤ 7 ∧ win1_7.index t (1 : Fin 3) ≤ 7 ∧ win1_7.index t (2 : Fin 3) = 0)
    ∧ (win1_6.index t (0 : Fin 3) = win1_7.index t (0 : Fin 3) ∧ win1_6.index t (1 : Fin 3) = win1_7.index t (1 : Fin 3) ∧ win1_6.index t (2 : Fin 3) = 0)
    ∧ (win1_0.index t (0 : Fin 3) = win1_7.index t (0 : Fin 3) ∧ win1_0.index t (1 : Fin 3) = win1_7.index t (1 : Fin 3) ∧ win1_0.index t (2 : Fin 3) = 0)
    ∧ (win1_1.index t (0 : Fin 2) = 0 ∧ win1_1.index t (1 : Fin 2) = 0)
    ∧ win1_2.index t (0 : Fin 1) = 0
    ∧ (win1_3.index t (0 : Fin 3) = win1_7.index t (0 : Fin 3) ∧ win1_3.index t (1 : Fin 3) = 0 ∧ win1_3.index t (2 : Fin 3) = 0)
    ∧ (win1_4.index t (0 : Fin 3) = win1_7.index t (0 : Fin 3) ∧ win1_4.index t (1 : Fin 3) = 0 ∧ win1_4.index t (2 : Fin 3) = 0)
    ∧ (win1_5.index t (0 : Fin 3) = win1_7.index t (0 : Fin 3) ∧ win1_5.index t (1 : Fin 3) = win1_7.index t (1 : Fin 3) ∧ win1_5.index t (2 : Fin 3) = 0) :=
  (by decide +kernel : ∀ t : Fin grid1.N, _)

/-- Every tile (b, j) is some point's. -/
theorem index_onto : ∀ (b : Fin 8) (j : Fin 8), ∃ t : Fin cfg1.N, win1_7.index t = ![b.val, j.val, 0] ∧ win1_6.index t = ![b.val, j.val, 0] :=
  (by decide +kernel : ∀ (b : Fin 8) (j : Fin 8), ∃ t : Fin grid1.N, win1_7.index t = ![b.val, j.val, 0] ∧ win1_6.index t = ![b.val, j.val, 0])

/-! ## The body's payloads at a tile element, over blocks that are rows of the arrays -/

/-- The row function of a tile's row r is the row function of array row (b, q), when the blocks are the arrays' rows. -/
theorem weights_row_eq (x0 : Vec Ideal S1x256x1024 .f32) (x1 : Vec Ideal S1024x1024 .bf16) (x2 : Vec Ideal S1024 .f32)
    (x3 : Vec Ideal S1x2048x1024 .bf16) (x5 : Vec Ideal S1x256x2048 .i32)
    (A0 : S8x2048x1024.Idx → EReal) (A1 : S1024x1024.Idx → EReal) (A2 : S1024.Idx → EReal)
    (A3 : S8x2048x1024.Idx → EReal) (A5 : S8x2048x2048.Idx → BitVec 32)
    (b : Fin 8) (q : Fin 2048) (r : Fin 256)
    (h0 : ∀ d : Fin 1024, x0 (ix3 0 r d) = A0 (ix3 b q d))
    (h1 : x1 = A1) (h2 : x2 = A2)
    (h3 : ∀ (k' : Fin 2048) (e : Fin 1024), x3 (ix3 0 k' e) = A3 (ix3 b k' e))
    (h5 : ∀ k' : Fin 2048, x5 (ix3 0 r k') = A5 (ix3 b q k')) :
    Attn.weightsRow (fun d => x0 (ix3 0 r d)) x1 x2 (fun k' e => x3 (ix3 0 k' e)) (fun k' => IntOp.cmpi .ne (x5 (ix3 0 r k')) 0#32)
      = Attn.weightsRow (fun d => A0 (ix3 b q d)) A1 A2 (fun k' e => A3 (ix3 b k' e)) (maskRow A5 b q) := by
  subst h1 h2
  have hm : (fun k' => IntOp.cmpi .ne (x5 (ix3 0 r k')) 0#32) = maskRow A5 b q := funext fun k' => by rw [h5]
  rw [funext h0, funext fun k' => funext (h3 k'), hm]

/-- The weights payload at tile element (r, k): the weights function of the arrays at (b, q, k). -/
theorem weights_point (x0 : Vec Ideal S1x256x1024 .f32) (x1 : Vec Ideal S1024x1024 .bf16) (x2 : Vec Ideal S1024 .f32)
    (x3 : Vec Ideal S1x2048x1024 .bf16) (x5 : Vec Ideal S1x256x2048 .i32)
    (A0 : S8x2048x1024.Idx → EReal) (A1 : S1024x1024.Idx → EReal) (A2 : S1024.Idx → EReal)
    (A3 : S8x2048x1024.Idx → EReal) (A5 : S8x2048x2048.Idx → BitVec 32)
    (b : Fin 8) (q : Fin 2048) (r : Fin 256) (k : Fin 2048)
    (h0 : ∀ d : Fin 1024, x0 (ix3 0 r d) = A0 (ix3 b q d))
    (h1 : x1 = A1) (h2 : x2 = A2)
    (h3 : ∀ (k' : Fin 2048) (e : Fin 1024), x3 (ix3 0 k' e) = A3 (ix3 b k' e))
    (h5 : ∀ k' : Fin 2048, x5 (ix3 0 r k') = A5 (ix3 b q k')) :
    k1_pay1 (F := Ideal) (k1_pay4 (F := Ideal) x0 x1 x2 x3 x5) (ix3 0 r k) = weightsOf A0 A1 A2 A3 A5 (ix3 b q k) := by
  rw [AttnPayload.store_cast_apply, AttnPayload.weights_payload, weights_row_eq x0 x1 x2 x3 x5 A0 A1 A2 A3 A5 b q r h0 h1 h2 h3 h5]
  rfl

/-- The output payload at tile element (r, e): the output function of the arrays at (b, q, e). -/
theorem out_point (x0 : Vec Ideal S1x256x1024 .f32) (x1 : Vec Ideal S1024x1024 .bf16) (x2 : Vec Ideal S1024 .f32)
    (x3 x4 : Vec Ideal S1x2048x1024 .bf16) (x5 : Vec Ideal S1x256x2048 .i32)
    (A0 : S8x2048x1024.Idx → EReal) (A1 : S1024x1024.Idx → EReal) (A2 : S1024.Idx → EReal)
    (A3 A4 : S8x2048x1024.Idx → EReal) (A5 : S8x2048x2048.Idx → BitVec 32)
    (b : Fin 8) (q : Fin 2048) (r : Fin 256) (e : Fin 1024)
    (h0 : ∀ d : Fin 1024, x0 (ix3 0 r d) = A0 (ix3 b q d))
    (h1 : x1 = A1) (h2 : x2 = A2)
    (h3 : ∀ (k' : Fin 2048) (e' : Fin 1024), x3 (ix3 0 k' e') = A3 (ix3 b k' e'))
    (h4 : ∀ (k' : Fin 2048) (e' : Fin 1024), x4 (ix3 0 k' e') = A4 (ix3 b k' e'))
    (h5 : ∀ k' : Fin 2048, x5 (ix3 0 r k') = A5 (ix3 b q k')) :
    k1_pay2 (F := Ideal) (k1_pay3 (F := Ideal) x4) (k1_pay4 (F := Ideal) x0 x1 x2 x3 x5) (ix3 0 r e)
      = outOf A0 A1 A2 A3 A4 A5 (ix3 b q e) := by
  rw [AttnPayload.out_payload]
  show _ = Attn.outRow (fun d => A0 (ix3 b q d)) A1 A2 (fun k' e' => A3 (ix3 b k' e')) (fun k' e' => A4 (ix3 b k' e')) (maskRow A5 b q) e
  unfold Attn.outRow
  refine Finset.sum_congr rfl fun k _ => ?_
  rw [AttnPayload.weights_payload, AttnPayload.value_cast_apply, h4,
    weights_row_eq x0 x1 x2 x3 x5 A0 A1 A2 A3 A5 b q r h0 h1 h2 h3 h5]

/-! ## Each input tile read where the output's tile says -/

/-- The query tile of point t, read at (0, r, d): row (tile index × 256 + r) of batch b of the query array. -/
theorem query_tile (c : Dev nD) (t : Fin cfg1.N) (b : Fin 8) (q : Fin 2048) (r : Fin 256) (d : Fin 1024)
    (hb : b.val = win1_0.index t (0 : Fin 3)) (hq : q.val = win1_0.index t (1 : Fin 3) * 256 + r.val)
    (hz : win1_0.index t (2 : Fin 3) = 0) :
    (iblk1 V c 0 t : Vec Ideal S1x256x1024 .f32) (ix3 0 r d) = (V c main_arg0 : S8x2048x1024.Idx → EReal) (ix3 b q d) := by
  show V c main_arg0 (((cfg1.win 0).blk t).view.emb (ix3 0 r d)) = V c main_arg0 (ix3 b q d)
  refine congrArg (V c main_arg0) (funext fun a => Fin.ext ?_)
  match a with
  | ⟨0, _⟩ => show win1_0.index t (0 : Fin 3) * 1 + 1 * 0 = b.val; omega
  | ⟨1, _⟩ => show win1_0.index t (1 : Fin 3) * 256 + 1 * r.val = q.val; omega
  | ⟨2, _⟩ => show win1_0.index t (2 : Fin 3) * 1024 + 1 * d.val = d.val; omega

/-- The weight block of every point is the whole weight matrix. -/
theorem weight_tile (c : Dev nD) (t : Fin cfg1.N)
    (h0 : win1_1.index t (0 : Fin 2) = 0) (h1 : win1_1.index t (1 : Fin 2) = 0) :
    (iblk1 V c 1 t : Vec Ideal S1024x1024 .bf16) = (V c main_v0 : S1024x1024.Idx → EReal) := by
  funext y
  have hy0 : (y 0).val < 1024 := (y 0).isLt
  have hy1 : (y 1).val < 1024 := (y 1).isLt
  show V c main_v0 (((cfg1.win 1).blk t).view.emb y) = V c main_v0 y
  refine congrArg (V c main_v0) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias block of every point is the whole bias vector. -/
theorem bias_tile (c : Dev nD) (t : Fin cfg1.N) (h0 : win1_2.index t (0 : Fin 1) = 0) :
    (iblk1 V c 2 t : Vec Ideal S1024 .f32) = (V c main_arg5 : S1024.Idx → EReal) := by
  funext y
  have hy0 : (y 0).val < 1024 := (y 0).isLt
  show V c main_arg5 (((cfg1.win 2).blk t).view.emb y) = V c main_arg5 y
  refine congrArg (V c main_arg5) (funext fun a => Fin.ext ?_)
  match a with
  | ⟨0, _⟩ => show win1_2.index t (0 : Fin 1) * 1024 + 1 * (y 0).val = (y 0).val; omega

/-- The key block of point t, read at (0, k, e): row k of batch b of the key array. -/
theorem key_tile (c : Dev nD) (t : Fin cfg1.N) (b : Fin 8) (k : Fin 2048) (e : Fin 1024)
    (hb : b.val = win1_3.index t (0 : Fin 3)) (h1 : win1_3.index t (1 : Fin 3) = 0) (h2 : win1_3.index t (2 : Fin 3) = 0) :
    (iblk1 V c 3 t : Vec Ideal S1x2048x1024 .bf16) (ix3 0 k e) = (V c main_v18 : S8x2048x1024.Idx → EReal) (ix3 b k e) := by
  show V c main_v18 (((cfg1.win 3).blk t).view.emb (ix3 0 k e)) = V c main_v18 (ix3 b k e)
  refine congrArg (V c main_v18) (funext fun a => Fin.ext ?_)
  match a with
  | ⟨0, _⟩ => show win1_3.index t (0 : Fin 3) * 1 + 1 * 0 = b.val; omega
  | ⟨1, _⟩ => show win1_3.index t (1 : Fin 3) * 2048 + 1 * k.val = k.val; omega
  | ⟨2, _⟩ => show win1_3.index t (2 : Fin 3) * 1024 + 1 * e.val = e.val; omega

/-- The value block of point t, read at (0, k, e): row k of batch b of the value array. -/
theorem value_tile (c : Dev nD) (t : Fin cfg1.N) (b : Fin 8) (k : Fin 2048) (e : Fin 1024)
    (hb : b.val = win1_4.index t (0 : Fin 3)) (h1 : win1_4.index t (1 : Fin 3) = 0) (h2 : win1_4.index t (2 : Fin 3) = 0) :
    (iblk1 V c 4 t : Vec Ideal S1x2048x1024 .bf16) (ix3 0 k e) = (V c main_v21 : S8x2048x1024.Idx → EReal) (ix3 b k e) := by
  show V c main_v21 (((cfg1.win 4).blk t).view.emb (ix3 0 k e)) = V c main_v21 (ix3 b k e)
  refine congrArg (V c main_v21) (funext fun a => Fin.ext ?_)
  match a with
  | ⟨0, _⟩ => show win1_4.index t (0 : Fin 3) * 1 + 1 * 0 = b.val; omega
  | ⟨1, _⟩ => show win1_4.index t (1 : Fin 3) * 2048 + 1 * k.val = k.val; omega
  | ⟨2, _⟩ => show win1_4.index t (2 : Fin 3) * 1024 + 1 * e.val = e.val; omega

/-- The mask tile of point t, read at (0, r, k): mask row (tile index × 256 + r) of batch b. -/
theorem mask_tile (c : Dev nD) (t : Fin cfg1.N) (b : Fin 8) (q : Fin 2048) (r : Fin 256) (k : Fin 2048)
    (hb : b.val = win1_5.index t (0 : Fin 3)) (hq : q.val = win1_5.index t (1 : Fin 3) * 256 + r.val)
    (hz : win1_5.index t (2 : Fin 3) = 0) :
    (iblk1 V c 5 t : Vec Ideal S1x256x2048 .i32) (ix3 0 r k) = (V c main_v22 : S8x2048x2048.Idx → BitVec 32) (ix3 b q k) := by
  show V c main_v22 (((cfg1.win 5).blk t).view.emb (ix3 0 r k)) = V c main_v22 (ix3 b q k)
  refine congrArg (V c main_v22) (funext fun a => Fin.ext ?_)
  match a with
  | ⟨0, _⟩ => show win1_5.index t (0 : Fin 3) * 1 + 1 * 0 = b.val; omega
  | ⟨1, _⟩ => show win1_5.index t (1 : Fin 3) * 256 + 1 * r.val = q.val; omega
  | ⟨2, _⟩ => show win1_5.index t (2 : Fin 3) * 2048 + 1 * k.val = k.val; omega

/-! ## The weights array -/

/-- What point t writes back to the weights array is tile t of the weights function of the arrays. -/
theorem weights_block (c : Dev nD) (t : Fin cfg1.N) :
    (dat1 (F := Ideal) V c).flushed 7 t
      = ((cfg1.win 7).blk t).view.read (Elt Ideal) (weightsOf (V c main_arg0) (V c main_v0) (V c main_arg5) (V c main_v18) (V c main_v22)) := by
  show (cfg1.win 7).cut (grid1.coords t) ((dat1 V c).after 7 t) = _
  rw [after1_7]
  unfold out1_7
  rw [View.canon_unit_zero zero3]
  simp only [View.ld_unit_zero (S := S1x256x1024) zero3, View.ld_unit_zero (S := S1024x1024) zero2,
    View.ld_unit_zero (S := S1024) zero1, View.ld_unit_zero (S := S1x2048x1024) zero3,
    View.ld_unit_zero (S := S1x256x2048) zero3]
  obtain ⟨⟨o0, o1, o2⟩, -, ⟨q0, q1, q2⟩, ⟨w0, w1⟩, b0, ⟨k0, k1, k2⟩, -, ⟨m0, m1, m2⟩⟩ := index_facts t
  funext y
  have hy0 : (y 0).val < 1 := (y 0).isLt
  have hy1 : (y 1).val < 256 := (y 1).isLt
  have hy2 : (y 2).val < 2048 := (y 2).isLt
  have hL : (win1 7).xinj (grid1.coords t) y = ix3 (0 : Fin 1) (⟨(y 1).val, hy1⟩ : Fin 256) (⟨(y 2).val, hy2⟩ : Fin 2048) :=
    funext fun a => Fin.ext (by
      match a with
      | ⟨0, _⟩ => show (y 0).val = 0; omega
      | ⟨1, _⟩ => rfl
      | ⟨2, _⟩ => rfl)
  have hR : ((cfg1.win 7).blk t).view.emb y
      = ix3 (⟨win1_7.index t (0 : Fin 3), by omega⟩ : Fin 8) (⟨win1_7.index t (1 : Fin 3) * 256 + (y 1).val, by omega⟩ : Fin 2048)
          (⟨(y 2).val, hy2⟩ : Fin 2048) :=
    funext fun a => Fin.ext (by
      match a with
      | ⟨0, _⟩ => show win1_7.index t (0 : Fin 3) * 1 + 1 * (y 0).val = win1_7.index t (0 : Fin 3); omega
      | ⟨1, _⟩ => show win1_7.index t (1 : Fin 3) * 256 + 1 * (y 1).val = win1_7.index t (1 : Fin 3) * 256 + (y 1).val; omega
      | ⟨2, _⟩ => show win1_7.index t (2 : Fin 3) * 2048 + 1 * (y 2).val = (y 2).val; omega)
  show k1_pay1 (F := Ideal) (k1_pay4 (F := Ideal) (iblk1 V c 0 t) (iblk1 V c 1 t) (iblk1 V c 2 t) (iblk1 V c 3 t) (iblk1 V c 5 t))
        ((win1 7).xinj (grid1.coords t) y)
      = weightsOf (V c main_arg0) (V c main_v0) (V c main_arg5) (V c main_v18) (V c main_v22) (((cfg1.win 7).blk t).view.emb y)
  rw [hL, hR]
  exact weights_point (iblk1 V c 0 t) (iblk1 V c 1 t) (iblk1 V c 2 t) (iblk1 V c 3 t) (iblk1 V c 5 t)
    (V c main_arg0) (V c main_v0) (V c main_arg5) (V c main_v18) (V c main_v22) _ _ _ _
    (fun d => query_tile V c t _ _ _ d (by show win1_7.index t (0 : Fin 3) = _; omega) (by show win1_7.index t (1 : Fin 3) * 256 + (y 1).val = win1_0.index t (1 : Fin 3) * 256 + (y 1).val; omega) q2)
    (weight_tile V c t w0 w1) (bias_tile V c t b0)
    (fun k' e => key_tile V c t _ k' e (by show win1_7.index t (0 : Fin 3) = _; omega) k1 k2)
    (fun k' => mask_tile V c t _ _ _ k' (by show win1_7.index t (0 : Fin 3) = _; omega) (by show win1_7.index t (1 : Fin 3) * 256 + (y 1).val = win1_5.index t (1 : Fin 3) * 256 + (y 1).val; omega) m2)

/-- An index of the weights array is in point t's tile iff each coordinate is in the tile's range on its axis. -/
theorem mem_weights_tile (t : Fin cfg1.N) (i : S8x2048x2048.Idx) :
    i ∈ ((cfg1.win 7).blk t).view.set ↔ ∀ a : Fin 3, win1_7.index t a * S1x256x2048.size a ≤ (i a).val
      ∧ (i a).val < win1_7.index t a * S1x256x2048.size a + S1x256x2048.size a := by
  show i ∈ ((View.whole main_v23_1).slice (win1_7.rect t)).set ↔ _
  rw [View.set_slice_whole, Rect.mem_set_unit]
  exact Iff.rfl

/-- Every index (b, q, k) of the weights array is in the tile of the point with tile indices (b, q / 256, 0). -/
theorem weights_cover (i : S8x2048x2048.Idx) :
    ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 2048 := (i 2).isLt
  obtain ⟨t, ht, -⟩ := index_onto ⟨(i 0).val, hi0⟩ ⟨(i 1).val / 256, by omega⟩
  have e0 : win1_7.index t (0 : Fin 3) = (i 0).val := congrFun ht 0
  have e1 : win1_7.index t (1 : Fin 3) = (i 1).val / 256 := congrFun ht 1
  have e2 : win1_7.index t (2 : Fin 3) = 0 := congrFun ht 2
  refine ⟨t, flush1_7 t, ?_⟩
  rw [mem_weights_tile]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 2048 ≤ (i 2).val ∧ (i 2).val < win1_7.index t (2 : Fin 3) * 2048 + 2048; omega

theorem final_weights (c : Dev nD) :
    (dat1 (F := Ideal) V c).arrAt 7 cfg1.N
      = weightsOf (V c main_arg0) (V c main_v0) (V c main_arg5) (V c main_v18) (V c main_v22) := by
  exact (dat1 (F := Ideal) V c).arrAt_eq_of_cover 7 _ (fun t _ => weights_block V c t) weights_cover

/-! ## The output array -/

/-- What point t writes back to the output array is tile t of the output function of the arrays. -/
theorem out_block (c : Dev nD) (t : Fin cfg1.N) :
    (dat1 (F := Ideal) V c).flushed 6 t
      = ((cfg1.win 6).blk t).view.read (Elt Ideal)
          (outOf (V c main_arg0) (V c main_v0) (V c main_arg5) (V c main_v18) (V c main_v21) (V c main_v22)) := by
  show (cfg1.win 6).cut (grid1.coords t) ((dat1 V c).after 6 t) = _
  rw [after1_6]
  unfold out1_6
  rw [View.canon_unit_zero zero3]
  simp only [View.ld_unit_zero (S := S1x256x1024) zero3, View.ld_unit_zero (S := S1024x1024) zero2,
    View.ld_unit_zero (S := S1024) zero1, View.ld_unit_zero (S := S1x2048x1024) zero3,
    View.ld_unit_zero (S := S1x256x2048) zero3]
  obtain ⟨⟨o0, o1, o2⟩, ⟨p0, p1, p2⟩, ⟨q0, q1, q2⟩, ⟨w0, w1⟩, b0, ⟨k0, k1, k2⟩, ⟨v0, v1, v2⟩, ⟨m0, m1, m2⟩⟩ := index_facts t
  funext y
  have hy0 : (y 0).val < 1 := (y 0).isLt
  have hy1 : (y 1).val < 256 := (y 1).isLt
  have hy2 : (y 2).val < 1024 := (y 2).isLt
  have hL : (win1 6).xinj (grid1.coords t) y = ix3 (0 : Fin 1) (⟨(y 1).val, hy1⟩ : Fin 256) (⟨(y 2).val, hy2⟩ : Fin 1024) :=
    funext fun a => Fin.ext (by
      match a with
      | ⟨0, _⟩ => show (y 0).val = 0; omega
      | ⟨1, _⟩ => rfl
      | ⟨2, _⟩ => rfl)
  have hR : ((cfg1.win 6).blk t).view.emb y
      = ix3 (⟨win1_6.index t (0 : Fin 3), by omega⟩ : Fin 8) (⟨win1_6.index t (1 : Fin 3) * 256 + (y 1).val, by omega⟩ : Fin 2048)
          (⟨(y 2).val, hy2⟩ : Fin 1024) :=
    funext fun a => Fin.ext (by
      match a with
      | ⟨0, _⟩ => show win1_6.index t (0 : Fin 3) * 1 + 1 * (y 0).val = win1_6.index t (0 : Fin 3); omega
      | ⟨1, _⟩ => show win1_6.index t (1 : Fin 3) * 256 + 1 * (y 1).val = win1_6.index t (1 : Fin 3) * 256 + (y 1).val; omega
      | ⟨2, _⟩ => show win1_6.index t (2 : Fin 3) * 1024 + 1 * (y 2).val = (y 2).val; omega)
  show k1_pay2 (F := Ideal) (k1_pay3 (F := Ideal) (iblk1 V c 4 t))
        (k1_pay4 (F := Ideal) (iblk1 V c 0 t) (iblk1 V c 1 t) (iblk1 V c 2 t) (iblk1 V c 3 t) (iblk1 V c 5 t))
        ((win1 6).xinj (grid1.coords t) y)
      = outOf (V c main_arg0) (V c main_v0) (V c main_arg5) (V c main_v18) (V c main_v21) (V c main_v22) (((cfg1.win 6).blk t).view.emb y)
  rw [hL, hR]
  exact out_point (iblk1 V c 0 t) (iblk1 V c 1 t) (iblk1 V c 2 t) (iblk1 V c 3 t) (iblk1 V c 4 t) (iblk1 V c 5 t)
    (V c main_arg0) (V c main_v0) (V c main_arg5) (V c main_v18) (V c main_v21) (V c main_v22) _ _ _ _
    (fun d => query_tile V c t _ _ _ d (by show win1_6.index t (0 : Fin 3) = _; omega)
      (by show win1_6.index t (1 : Fin 3) * 256 + (y 1).val = win1_0.index t (1 : Fin 3) * 256 + (y 1).val; omega) q2)
    (weight_tile V c t w0 w1) (bias_tile V c t b0)
    (fun k' e' => key_tile V c t _ k' e' (by show win1_6.index t (0 : Fin 3) = _; omega) k1 k2)
    (fun k' e' => value_tile V c t _ k' e' (by show win1_6.index t (0 : Fin 3) = _; omega) v1 v2)
    (fun k' => mask_tile V c t _ _ _ k' (by show win1_6.index t (0 : Fin 3) = _; omega)
      (by show win1_6.index t (1 : Fin 3) * 256 + (y 1).val = win1_5.index t (1 : Fin 3) * 256 + (y 1).val; omega) m2)

/-- An index of the output array is in point t's tile iff each coordinate is in the tile's range on its axis. -/
theorem mem_out_tile (t : Fin cfg1.N) (i : S8x2048x1024.Idx) :
    i ∈ ((cfg1.win 6).blk t).view.set ↔ ∀ a : Fin 3, win1_6.index t a * S1x256x1024.size a ≤ (i a).val
      ∧ (i a).val < win1_6.index t a * S1x256x1024.size a + S1x256x1024.size a := by
  show i ∈ ((View.whole main_v23_0).slice (win1_6.rect t)).set ↔ _
  rw [View.set_slice_whole, Rect.mem_set_unit]
  exact Iff.rfl

/-- Every index (b, q, e) of the output array is in the tile of the point with tile indices (b, q / 256, 0). -/
theorem out_cover (i : S8x2048x1024.Idx) :
    ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 1024 := (i 2).isLt
  obtain ⟨t, -, ht⟩ := index_onto ⟨(i 0).val, hi0⟩ ⟨(i 1).val / 256, by omega⟩
  have e0 : win1_6.index t (0 : Fin 3) = (i 0).val := congrFun ht 0
  have e1 : win1_6.index t (1 : Fin 3) = (i 1).val / 256 := congrFun ht 1
  have e2 : win1_6.index t (2 : Fin 3) = 0 := congrFun ht 2
  refine ⟨t, flush1_6 t, ?_⟩
  rw [mem_out_tile]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

theorem final_out (c : Dev nD) :
    (dat1 (F := Ideal) V c).arrAt 6 cfg1.N
      = outOf (V c main_arg0) (V c main_v0) (V c main_arg5) (V c main_v18) (V c main_v21) (V c main_v22) := by
  exact (dat1 (F := Ideal) V c).arrAt_eq_of_cover 6 _ (fun t _ => out_block V c t) out_cover

end Cert.KernelIdeal.AttnRegion

end
-- ==== Proof.HostGlue.lean ====
/-
  What the host operations around the two calls leave in the arrays the calls read, element by element: the stacks the
  projection call reads are the key and value inputs, weights and biases laid one above the other; the key and value
  arrays the attention call reads are the two halves of the projection call's output, re-laid as [8, 2048, 1024]; its
  mask words are the mask bits widened; its weight matrix is the query weights (a change of float format is the identity here).
-/
import proofs.«402941_j47433618817588_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- Row `s` of batch `b` in the flattened [16384, 1024] layout. -/
abbrev flatRow (b : Fin 8) (s : Fin 2048) : Fin 16384 := ⟨b.val * 2048 + s.val, by have := b.isLt; have := s.isLt; omega⟩

/-! ### The three stacks as the terms of their operations, and their layout operations read at an index -/

/-- The input stack: each of the key and value inputs flattened to [16384, 1024], given a leading unit axis, the two
    laid one above the other. -/
theorem xstack_term (c : Dev nD) :
    (V1 m ρ c main_v7 : S2x16384x1024.Idx → EReal) =
      concatenate S2x16384x1024 0
        [⟨S1x16384x1024, broadcastInDim S1x16384x1024 ![1, 2] bcast_S16384x1024_S1x16384x1024_1_2
            (shapeCast S16384x1024 (m ((c : Thread nD τ).loc main_arg1) : S8x2048x1024.Idx → EReal) shapeCasts_S8x2048x1024_S16384x1024)⟩,
         ⟨S1x16384x1024, broadcastInDim S1x16384x1024 ![1, 2] bcast_S16384x1024_S1x16384x1024_1_2
            (shapeCast S16384x1024 (m ((c : Thread nD τ).loc main_arg2) : S8x2048x1024.Idx → EReal) shapeCasts_S8x2048x1024_S16384x1024)⟩]
        concatenates_S1x16384x1024_S1x16384x1024_S2x16384x1024_d0 := by
  show StableHlo.after hostOps0 (W0 m ρ c) (Proc.devRef .tc main_v7) = _
  after_results
  rfl

/-- A flattened [8, 2048, 1024] array under a leading unit axis reads, at (0, b·2048 + s, d), the array at (b, s, d). -/
theorem flat_unit_apply {α : Type} (x : S8x2048x1024.Idx → α) (u : Fin 1) (b : Fin 8) (s : Fin 2048) (d : Fin 1024) :
    broadcastInDim S1x16384x1024 ![1, 2] bcast_S16384x1024_S1x16384x1024_1_2
      (shapeCast S16384x1024 x shapeCasts_S8x2048x1024_S16384x1024) (ix3 u (flatRow b s) d) = x (ix3 b s d) := by
  refine (broadcastInDim_apply _ _ _ _ (ix2 (flatRow b s) d) fun a => ?_).trans ?_
  · match a with
    | ⟨0, _⟩ => exact (if_neg (show ¬ (16384 : Nat) = 1 by decide)).symm
    | ⟨1, _⟩ => exact (if_neg (show ¬ (1024 : Nat) = 1 by decide)).symm
  · refine shapeCast_apply x _ _ (ix3 b s d) ?_
    rw [Shape.rowMajor_val_three, Shape.rowMajor_val_two]
    rfl

/-- The weight stack: each of the key and value weight matrices under a leading unit axis, the two laid one above the
    other (the change of float format left in place: it is the identity entry by entry). -/
theorem wstack_term (c : Dev nD) :
    (V1 m ρ c main_v10 : S2x1024x1024.Idx → EReal) =
      concatenate S2x1024x1024 0
        [⟨S1x1024x1024, broadcastInDim S1x1024x1024 ![1, 2] bcast_S1024x1024_S1x1024x1024_1_2
            (truncf (F := Ideal) .bf16 (m ((c : Thread nD τ).loc main_arg6) : FVec Ideal S1024x1024 .f32) bitsLt_bf16_f32)⟩,
         ⟨S1x1024x1024, broadcastInDim S1x1024x1024 ![1, 2] bcast_S1024x1024_S1x1024x1024_1_2
            (truncf (F := Ideal) .bf16 (m ((c : Thread nD τ).loc main_arg8) : FVec Ideal S1024x1024 .f32) bitsLt_bf16_f32)⟩]
        concatenates_S1x1024x1024_S1x1024x1024_S2x1024x1024_d0 := by
  show StableHlo.after hostOps0 (W0 m ρ c) (Proc.devRef .tc main_v10) = _
  after_results

/-- A [1024, 1024] matrix under a leading unit axis reads, at (0, d, e), the matrix at (d, e). -/
theorem mat_unit_apply {α : Type} (x : S1024x1024.Idx → α) (u : Fin 1) (d e : Fin 1024) :
    broadcastInDim S1x1024x1024 ![1, 2] bcast_S1024x1024_S1x1024x1024_1_2 x (ix3 u d e) = x (ix2 d e) := by
  refine broadcastInDim_apply _ _ _ _ (ix2 d e) fun a => ?_
  match a with
  | ⟨0, _⟩ => exact (if_neg (show ¬ (1024 : Nat) = 1 by decide)).symm
  | ⟨1, _⟩ => exact (if_neg (show ¬ (1024 : Nat) = 1 by decide)).symm

/-- The bias stack: each of the key and value biases as a row, the two rows laid one above the other, a unit axis put
    between the row's number and its entries. -/
theorem bstack_term (c : Dev nD) :
    (V1 m ρ c main_v14 : S2x1x1024.Idx → EReal) =
      broadcastInDim S2x1x1024 ![0, 2] bcast_S2x1024_S2x1x1024_0_2
        (concatenate S2x1024 0
          [⟨S1x1024, broadcastInDim S1x1024 ![1] bcast_S1024_S1x1024_1 (m ((c : Thread nD τ).loc main_arg7) : S1024.Idx → EReal)⟩,
           ⟨S1x1024, broadcastInDim S1x1024 ![1] bcast_S1024_S1x1024_1 (m ((c : Thread nD τ).loc main_arg9) : S1024.Idx → EReal)⟩]
          concatenates_S1x1024_S1x1024_S2x1024_d0) := by
  show StableHlo.after hostOps0 (W0 m ρ c) (Proc.devRef .tc main_v14) = _
  after_results

/-- A row stack [2, 1024] with a unit axis put in the middle reads, at (r, 0, e), the stack at (r, e). -/
theorem rows_unit_apply {α : Type} (x : S2x1024.Idx → α) (r : Fin 2) (u : Fin 1) (e : Fin 1024) :
    broadcastInDim S2x1x1024 ![0, 2] bcast_S2x1024_S2x1x1024_0_2 x (ix3 r u e) = x (ix2 r e) := by
  refine broadcastInDim_apply _ _ _ _ (ix2 r e) fun a => ?_
  match a with
  | ⟨0, _⟩ => exact (if_neg (show ¬ (2 : Nat) = 1 by decide)).symm
  | ⟨1, _⟩ => exact (if_neg (show ¬ (1024 : Nat) = 1 by decide)).symm

/-- A vector as a one-row matrix reads, at (0, e), the vector at e. -/
theorem vec_row_apply {α : Type} (x : S1024.Idx → α) (u : Fin 1) (e : Fin 1024) :
    broadcastInDim S1x1024 ![1] bcast_S1024_S1x1024_1 x (ix2 u e) = x (ix1 e) := by
  refine broadcastInDim_apply _ _ _ _ (ix1 e) fun a => ?_
  match a with
  | ⟨0, _⟩ => exact (if_neg (show ¬ (1024 : Nat) = 1 by decide)).symm

/-! ### The attention call's key and value arrays as the terms of their operations -/

/-- The first half of a [2, 16384, 1024] array re-laid as [8, 2048, 1024]: row (b, s) is row b·2048 + s of the half. -/
theorem half_key_apply {α : Type} (y : S2x16384x1024.Idx → α) (b : Fin 8) (s : Fin 2048) (e : Fin 1024) :
    shapeCast S8x2048x1024
      (shapeCast S16384x1024 (extractStridedSlice S1x16384x1024 ![0, 0, 0] y slices_S2x16384x1024_S1x16384x1024_0_0_0)
        shapeCasts_S1x16384x1024_S16384x1024) shapeCasts_S16384x1024_S8x2048x1024 (ix3 b s e)
      = y (ix3 0 (flatRow b s) e) := by
  refine (shapeCast_apply _ _ _ (ix2 (flatRow b s) e) ?_).trans ?_
  · rw [Shape.rowMajor_val_three, Shape.rowMajor_val_two]
    rfl
  refine (shapeCast_apply _ _ _ (ix3 (0 : Fin 1) (flatRow b s) e) ?_).trans ?_
  · rw [Shape.rowMajor_val_three, Shape.rowMajor_val_two]
    show (0 * 16384 + (b.val * 2048 + s.val)) * 1024 + e.val = (b.val * 2048 + s.val) * 1024 + e.val
    rw [Nat.zero_mul, Nat.zero_add]
  refine extractStridedSlice_apply _ y _ _ (ix3 0 (flatRow b s) e) fun a => ?_
  match a with
  | ⟨0, _⟩ => rfl
  | ⟨1, _⟩ => exact (Nat.zero_add _).symm
  | ⟨2, _⟩ => exact (Nat.zero_add _).symm

/-- The second half, likewise. -/
theorem half_value_apply {α : Type} (y : S2x16384x1024.Idx → α) (b : Fin 8) (s : Fin 2048) (e : Fin 1024) :
    shapeCast S8x2048x1024
      (shapeCast S16384x1024 (extractStridedSlice S1x16384x1024 ![1, 0, 0] y slices_S2x16384x1024_S1x16384x1024_1_0_0)
        shapeCasts_S1x16384x1024_S16384x1024) shapeCasts_S16384x1024_S8x2048x1024 (ix3 b s e)
      = y (ix3 1 (flatRow b s) e) := by
  refine (shapeCast_apply _ _ _ (ix2 (flatRow b s) e) ?_).trans ?_
  · rw [Shape.rowMajor_val_three, Shape.rowMajor_val_two]
    rfl
  refine (shapeCast_apply _ _ _ (ix3 (0 : Fin 1) (flatRow b s) e) ?_).trans ?_
  · rw [Shape.rowMajor_val_three, Shape.rowMajor_val_two]
    show (0 * 16384 + (b.val * 2048 + s.val)) * 1024 + e.val = (b.val * 2048 + s.val) * 1024 + e.val
    rw [Nat.zero_mul, Nat.zero_add]
  refine extractStridedSlice_apply _ y _ _ (ix3 1 (flatRow b s) e) fun a => ?_
  match a with
  | ⟨0, _⟩ => rfl
  | ⟨1, _⟩ => exact (Nat.zero_add _).symm
  | ⟨2, _⟩ => exact (Nat.zero_add _).symm

/-- The key array: the first half of the projection call's output, its unit axis dropped, re-laid as [8, 2048, 1024]. -/
theorem keys_term (c : Dev nD) :
    (V3 m ρ c main_v18 : S8x2048x1024.Idx → EReal) =
      shapeCast S8x2048x1024
        (shapeCast S16384x1024
          (extractStridedSlice S1x16384x1024 ![0, 0, 0] (W2 m ρ c (Proc.devRef .tc main_v15) : S2x16384x1024.Idx → EReal)
            slices_S2x16384x1024_S1x16384x1024_0_0_0)
          shapeCasts_S1x16384x1024_S16384x1024) shapeCasts_S16384x1024_S8x2048x1024 := by
  show StableHlo.after hostOps1 (W2 m ρ c) (Proc.devRef .tc main_v18) = _
  after_results
  rfl
/-- The value array: the second half, likewise. -/
theorem values_term (c : Dev nD) :
    (V3 m ρ c main_v21 : S8x2048x1024.Idx → EReal) =
      shapeCast S8x2048x1024
        (shapeCast S16384x1024
          (extractStridedSlice S1x16384x1024 ![1, 0, 0] (W2 m ρ c (Proc.devRef .tc main_v15) : S2x16384x1024.Idx → EReal)
            slices_S2x16384x1024_S1x16384x1024_1_0_0)
          shapeCasts_S1x16384x1024_S16384x1024) shapeCasts_S16384x1024_S8x2048x1024 := by
  show StableHlo.after hostOps1 (W2 m ρ c) (Proc.devRef .tc main_v21) = _
  after_results
  rfl

/-! ### Entering the projection call -/

theorem xstack_key (c : Dev nD) (b : Fin 8) (s : Fin 2048) (d : Fin 1024) :
    V1 m ρ c main_v7 (ix3 0 (flatRow b s) d) = m ((c : Thread nD τ).loc main_arg1) (ix3 b s d) := by
  refine (congrFun (xstack_term m ρ c) _).trans ?_
  refine (concatenate_pair_apply_left (t := S2x16384x1024) (s₁ := S1x16384x1024) (s₂ := S1x16384x1024) 0 _ _ _ _ rfl
    (ix3 (0 : Fin 1) (flatRow b s) d) fun a => ?_).trans ?_
  · match a with
    | ⟨0, _⟩ => rfl
    | ⟨1, _⟩ => rfl
    | ⟨2, _⟩ => rfl
  · exact flat_unit_apply _ 0 b s d
theorem xstack_value (c : Dev nD) (b : Fin 8) (s : Fin 2048) (d : Fin 1024) :
    V1 m ρ c main_v7 (ix3 1 (flatRow b s) d) = m ((c : Thread nD τ).loc main_arg2) (ix3 b s d) := by
  refine (congrFun (xstack_term m ρ c) _).trans ?_
  refine (concatenate_pair_apply_right (t := S2x16384x1024) (s₁ := S1x16384x1024) (s₂ := S1x16384x1024) 0 _ _ _ _ rfl rfl
    (ix3 (0 : Fin 1) (flatRow b s) d) (fun a ha => ?_) rfl).trans ?_
  · match a with
    | ⟨0, _⟩ => exact absurd rfl ha
    | ⟨1, _⟩ => rfl
    | ⟨2, _⟩ => rfl
  · exact flat_unit_apply _ 0 b s d
theorem wstack_key (c : Dev nD) (d e : Fin 1024) :
    V1 m ρ c main_v10 (ix3 0 d e) = m ((c : Thread nD τ).loc main_arg6) (ix2 d e) := by
  refine (congrFun (wstack_term m ρ c) _).trans ?_
  refine (concatenate_pair_apply_left (t := S2x1024x1024) (s₁ := S1x1024x1024) (s₂ := S1x1024x1024) 0 _ _ _ _ rfl
    (ix3 (0 : Fin 1) d e) fun a => ?_).trans ?_
  · match a with
    | ⟨0, _⟩ => rfl
    | ⟨1, _⟩ => rfl
    | ⟨2, _⟩ => rfl
  · exact mat_unit_apply _ 0 d e
theorem wstack_value (c : Dev nD) (d e : Fin 1024) :
    V1 m ρ c main_v10 (ix3 1 d e) = m ((c : Thread nD τ).loc main_arg8) (ix2 d e) := by
  refine (congrFun (wstack_term m ρ c) _).trans ?_
  refine (concatenate_pair_apply_right (t := S2x1024x1024) (s₁ := S1x1024x1024) (s₂ := S1x1024x1024) 0 _ _ _ _ rfl rfl
    (ix3 (0 : Fin 1) d e) (fun a ha => ?_) rfl).trans ?_
  · match a with
    | ⟨0, _⟩ => exact absurd rfl ha
    | ⟨1, _⟩ => rfl
    | ⟨2, _⟩ => rfl
  · exact mat_unit_apply _ 0 d e
theorem bstack_key (c : Dev nD) (e : Fin 1024) :
    V1 m ρ c main_v14 (ix3 0 0 e) = m ((c : Thread nD τ).loc main_arg7) (ix1 e) := by
  refine (congrFun (bstack_term m ρ c) _).trans ?_
  refine (rows_unit_apply _ 0 0 e).trans ?_
  refine (concatenate_pair_apply_left (t := S2x1024) (s₁ := S1x1024) (s₂ := S1x1024) 0 _ _ _ _ rfl
    (ix2 (0 : Fin 1) e) fun a => ?_).trans ?_
  · match a with
    | ⟨0, _⟩ => rfl
    | ⟨1, _⟩ => rfl
  · exact vec_row_apply _ 0 e
theorem bstack_value (c : Dev nD) (e : Fin 1024) :
    V1 m ρ c main_v14 (ix3 1 0 e) = m ((c : Thread nD τ).loc main_arg9) (ix1 e) := by
  refine (congrFun (bstack_term m ρ c) _).trans ?_
  refine (rows_unit_apply _ 1 0 e).trans ?_
  refine (concatenate_pair_apply_right (t := S2x1024) (s₁ := S1x1024) (s₂ := S1x1024) 0 _ _ _ _ rfl rfl
    (ix2 (0 : Fin 1) e) (fun a ha => ?_) rfl).trans ?_
  · match a with
    | ⟨0, _⟩ => exact absurd rfl ha
    | ⟨1, _⟩ => rfl
  · exact vec_row_apply _ 0 e

/-! ### Entering the attention call -/

theorem keys (c : Dev nD) (b : Fin 8) (s : Fin 2048) (e : Fin 1024) :
    V3 m ρ c main_v18 (ix3 b s e) = W2 m ρ c (Proc.devRef .tc main_v15) (ix3 0 (flatRow b s) e) := by
  exact (congrFun (keys_term m ρ c) _).trans (half_key_apply _ b s e)
theorem values (c : Dev nD) (b : Fin 8) (s : Fin 2048) (e : Fin 1024) :
    V3 m ρ c main_v21 (ix3 b s e) = W2 m ρ c (Proc.devRef .tc main_v15) (ix3 1 (flatRow b s) e) := by
  exact (congrFun (values_term m ρ c) _).trans (half_value_apply _ b s e)
theorem query (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results
theorem query_weights (c : Dev nD) (i : S1024x1024.Idx) : V3 m ρ c main_v0 i = m ((c : Thread nD τ).loc main_arg4) i := by
  have e : (V3 m ρ c main_v0 : S1024x1024.Idx → EReal)
      = truncf (F := Ideal) .bf16 (m ((c : Thread nD τ).loc main_arg4) : FVec Ideal S1024x1024 .f32) bitsLt_bf16_f32 := by
    show StableHlo.after hostOps1 (W2 m ρ c) (Proc.devRef .tc main_v0) = _
    after_results
    rw [W2_of_ne m ρ c main_v0 (by decide)]
    show StableHlo.after hostOps0 (W0 m ρ c) (Proc.devRef .tc main_v0) = _
    after_results
  exact congrFun e i
theorem query_bias (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results
theorem mask_words (c : Dev nD) (i : S8x2048x2048.Idx) :
    V3 m ρ c main_v22 i = (m ((c : Thread nD τ).loc main_arg3) i).setWidth 32 := by
  have e : (V3 m ρ c main_v22 : IVec S8x2048x2048 32)
      = extui 32 (m ((c : Thread nD τ).loc main_arg3) : IVec S8x2048x2048 1) natLt_1_32 := by
    show StableHlo.after hostOps1 (W2 m ρ c) (Proc.devRef .tc main_v22) = _
    after_results
    rw [W2_of_ne m ρ c main_arg3 (by decide)]
    show extui 32 (StableHlo.after hostOps0 (W0 m ρ c) (Proc.devRef .tc main_arg3)) natLt_1_32 = _
    after_results
  exact congrFun e i

end Cert.KernelIdeal.Glue

end
-- ==== Proof.KernelValue.lean ====
/-
  The idealized kernel program's two results as the layer's functions of its arguments.

  The run's final contents at the two result buffers are the attention call's output arrays. Those are the row function
  of the arrays the call reads: the query input, the query weights and bias, the key and value arrays, the mask words.
  The host operations make the first three the arguments themselves and the mask words the mask bits widened; the key
  and value arrays are the two halves of the projection call's output, whose entry (p, b·2048 + s, e) is row (b, s) of
  stack p through layer p, and the stacks are the key and value inputs, weights and biases. So the key array's batch
  b is the projection of the key input's batch b, the value array's likewise, and the two results are the layer's
  weights and output.
-/
import proofs.«402941_j47433618817588_3_alg».proof.Proof.KernelLaunch
import proofs.«402941_j47433618817588_3_alg».proof.Proof.ProjRegion
import proofs.«402941_j47433618817588_3_alg».proof.Proof.AttnRegion
import proofs.«402941_j47433618817588_3_alg».proof.Proof.HostGlue
import proofs.«402941_j47433618817588_3_alg».proof.Proof.AttnRow

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem

/-! ## Over arrays as variables -/

/-- Half `p` of the stacked projection, at flattened row b·2048 + s, is the projection of row (b, s) of the input
    whose rows the stack's half `p` holds, through the layer whose weights and bias that half holds. -/
theorem stacked_entry (p : Fin 2) (xs : S2x16384x1024.Idx → EReal) (ws : S2x1024x1024.Idx → EReal) (bs : S2x1x1024.Idx → EReal)
    (x : Attn.Act.Idx → EReal) (w : Attn.Wgt.Idx → EReal) (β : Attn.Bias.Idx → EReal)
    (hx : ∀ (b : Fin 8) (s : Fin 2048) (d : Fin 1024), xs (ix3 p (Glue.flatRow b s) d) = x (ix3 b s d))
    (hw : ∀ d e : Fin 1024, ws (ix3 p d e) = w (ix2 d e)) (hb : ∀ e : Fin 1024, bs (ix3 p 0 e) = β (ix1 e))
    (b : Fin 8) (s : Fin 2048) (e : Fin 1024) :
    ProjRegion.stacked xs ws bs (ix3 p (Glue.flatRow b s) e) = Attn.projRow (fun d => x (ix3 b s d)) w β e := by
  show (∑ d : Fin 1024, xs (ix3 p (Glue.flatRow b s) d) * ws (ix3 p d e)) + bs (ix3 p 0 e)
    = (∑ d : Fin 1024, x (ix3 b s d) * w (ix2 d e)) + β (ix1 e)
  rw [hb]
  exact congrArg (· + β (ix1 e)) (Finset.sum_congr rfl fun d _ => by rw [hx, hw])

/-- The mask row the call tests (words against zero) is the row of mask bits, when the words are the bits widened. -/
theorem maskRow_eq (A5 : S8x2048x2048.Idx → BitVec 32) (msk : Attn.Scr.Idx → BitVec 1) (h5 : ∀ i, A5 i = (msk i).setWidth 32)
    (b : Fin 8) (q : Fin 2048) : AttnRegion.maskRow A5 b q = fun k => msk (ix3 b q k) :=
  funext fun k => by
    show IntOp.cmpi .ne (A5 (ix3 b q k)) 0#32 = msk (ix3 b q k)
    rw [h5]; exact Attn.ne_zero_setWidth _

/-- The call's weights array is the layer's, when the arrays it reads are the query input, weights and bias, the key
    input's projection, and the widened mask. -/
theorem weightsOf_eq (A0 : S8x2048x1024.Idx → EReal) (A1 : S1024x1024.Idx → EReal) (A2 : S1024.Idx → EReal)
    (A3 : S8x2048x1024.Idx → EReal) (A5 : S8x2048x2048.Idx → BitVec 32)
    (qx kx : Attn.Act.Idx → EReal) (msk : Attn.Scr.Idx → BitVec 1) (wq : Attn.Wgt.Idx → EReal) (bq : Attn.Bias.Idx → EReal)
    (wk : Attn.Wgt.Idx → EReal) (bk : Attn.Bias.Idx → EReal)
    (h0 : A0 = qx) (h1 : A1 = wq) (h2 : A2 = bq)
    (h3 : ∀ (b : Fin 8) (s : Fin 2048) (e : Fin 1024), A3 (ix3 b s e) = Attn.projRow (fun d => kx (ix3 b s d)) wk bk e)
    (h5 : ∀ i, A5 i = (msk i).setWidth 32) :
    AttnRegion.weightsOf A0 A1 A2 A3 A5 = Attn.weightsArr qx kx msk wq bq wk bk := by
  subst h0 h1 h2
  funext i
  have eK : (fun (k : Fin 2048) (e : Fin 1024) => A3 (ix3 (i 0) k e)) = Attn.projMat kx wk bk (i 0) :=
    funext fun k => funext fun e => h3 (i 0) k e
  show Attn.weightsRow (fun d => A0 (ix3 (i 0) (i 1) d)) A1 A2 (fun k e => A3 (ix3 (i 0) k e)) (AttnRegion.maskRow A5 (i 0) (i 1)) (i 2)
    = Attn.weightsRow (fun d => A0 (ix3 (i 0) (i 1) d)) A1 A2 (Attn.projMat kx wk bk (i 0)) (fun k => msk (ix3 (i 0) (i 1) k)) (i 2)
  rw [eK, maskRow_eq A5 msk h5 (i 0) (i 1)]

/-- The call's output array is the layer's, when moreover the value array is the value input's projection. -/
theorem outOf_eq (A0 : S8x2048x1024.Idx → EReal) (A1 : S1024x1024.Idx → EReal) (A2 : S1024.Idx → EReal)
    (A3 A4 : S8x2048x1024.Idx → EReal) (A5 : S8x2048x2048.Idx → BitVec 32)
    (qx kx vx : Attn.Act.Idx → EReal) (msk : Attn.Scr.Idx → BitVec 1) (wq : Attn.Wgt.Idx → EReal) (bq : Attn.Bias.Idx → EReal)
    (wk : Attn.Wgt.Idx → EReal) (bk : Attn.Bias.Idx → EReal) (wv : Attn.Wgt.Idx → EReal) (bv : Attn.Bias.Idx → EReal)
    (h0 : A0 = qx) (h1 : A1 = wq) (h2 : A2 = bq)
    (h3 : ∀ (b : Fin 8) (s : Fin 2048) (e : Fin 1024), A3 (ix3 b s e) = Attn.projRow (fun d => kx (ix3 b s d)) wk bk e)
    (h4 : ∀ (b : Fin 8) (s : Fin 2048) (e : Fin 1024), A4 (ix3 b s e) = Attn.projRow (fun d => vx (ix3 b s d)) wv bv e)
    (h5 : ∀ i, A5 i = (msk i).setWidth 32) :
    AttnRegion.outOf A0 A1 A2 A3 A4 A5 = Attn.outArr qx kx vx msk wq bq wk bk wv bv := by
  subst h0 h1 h2
  funext i
  have eK : (fun (k : Fin 2048) (e : Fin 1024) => A3 (ix3 (i 0) k e)) = Attn.projMat kx wk bk (i 0) :=
    funext fun k => funext fun e => h3 (i 0) k e
  have eV : (fun (k : Fin 2048) (e : Fin 1024) => A4 (ix3 (i 0) k e)) = Attn.projMat vx wv bv (i 0) :=
    funext fun k => funext fun e => h4 (i 0) k e
  show Attn.outRow (fun d => A0 (ix3 (i 0) (i 1) d)) A1 A2 (fun k e => A3 (ix3 (i 0) k e)) (fun k e => A4 (ix3 (i 0) k e))
      (AttnRegion.maskRow A5 (i 0) (i 1)) (i 2)
    = Attn.outRow (fun d => A0 (ix3 (i 0) (i 1) d)) A1 A2 (Attn.projMat kx wk bk (i 0)) (Attn.projMat vx wv bv (i 0))
      (fun k => msk (ix3 (i 0) (i 1) k)) (i 2)
  rw [eK, eV, maskRow_eq A5 msk h5 (i 0) (i 1)]

/-! ## At the run's boundary contents -/

variable (m : (ℓ : Loc nD τ sig) → Buf (Elt Ideal) ℓ) (ρ : Dev nD → PrngReg)

/-- The projection call leaves its output array at the stacked projection of the three stacks it reads. -/
theorem proj_out (c : Dev nD) :
    W2 m ρ c (Proc.devRef .tc main_v15) = ProjRegion.stacked (V1 m ρ c main_v7) (V1 m ρ c main_v10) (V1 m ρ c main_v14) :=
  (W2_arr m ρ c 3).trans (ProjRegion.final (V1 m ρ) c)

/-- The key array the attention call reads is the key input's projection. -/
theorem key_entry (c : Dev nD) (b : Fin 8) (s : Fin 2048) (e : Fin 1024) :
    V3 m ρ c main_v18 (ix3 b s e)
      = Attn.projRow (fun d => m ((c : Thread nD τ).loc main_arg1) (ix3 b s d)) (m ((c : Thread nD τ).loc main_arg6)) (m ((c : Thread nD τ).loc main_arg7)) e := by
  rw [Glue.keys m ρ c b s e, proj_out m ρ c]
  exact stacked_entry 0 _ _ _ _ _ _ (Glue.xstack_key m ρ c) (Glue.wstack_key m ρ c) (Glue.bstack_key m ρ c) b s e

/-- The value array the attention call reads is the value input's projection. -/
theorem value_entry (c : Dev nD) (b : Fin 8) (s : Fin 2048) (e : Fin 1024) :
    V3 m ρ c main_v21 (ix3 b s e)
      = Attn.projRow (fun d => m ((c : Thread nD τ).loc main_arg2) (ix3 b s d)) (m ((c : Thread nD τ).loc main_arg8)) (m ((c : Thread nD τ).loc main_arg9)) e := by
  rw [Glue.values m ρ c b s e, proj_out m ρ c]
  exact stacked_entry 1 _ _ _ _ _ _ (Glue.xstack_value m ρ c) (Glue.wstack_value m ρ c) (Glue.bstack_value m ρ c) b s e

theorem weights_final (c : Dev nD) :
    W4 m ρ c (Proc.devRef .tc main_v23_1) = Attn.weightsArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  ((W4_arr m ρ c 7).trans (AttnRegion.final_weights (V3 m ρ) c)).trans
    (weightsOf_eq _ _ _ _ _ _ _ _ _ _ _ _ (Glue.query m ρ c) (funext (Glue.query_weights m ρ c)) (Glue.query_bias m ρ c)
      (key_entry m ρ c) (Glue.mask_words m ρ c))

theorem out_final (c : Dev nD) :
    W4 m ρ c (Proc.devRef .tc main_v23_0) = Attn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((W4_arr m ρ c 6).trans (AttnRegion.final_out (V3 m ρ) c)).trans
    (outOf_eq _ _ _ _ _ _ _ _ _ _ _ _ _ _ _ _ (Glue.query m ρ c) (funext (Glue.query_weights m ρ c)) (Glue.query_bias m ρ c)
      (key_entry m ρ c) (value_entry m ρ c) (Glue.mask_words m ρ c))

/-- The run, with each result at the layer's function of the arguments: every weakly fair execution of the idealized
    kernel program ends with the output and the attention weights the layer defines, the arguments as launched. -/
theorem run : θ_run defs (onTc (τ := τ) (main (F := Ideal))) ⟨m, fun _ => 0, ρ⟩ (fun r => ∀ c : Dev nD,
      r.2.mem ((c.tc : Thread nD τ).loc main_v23_0) = Attn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v23_1) = Attn.weightsArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨(h c).1.trans (out_final m ρ c), (h c).2.1.trans (weights_final m ρ c), (h c).2.2⟩)
    (Results.run_results (F := Ideal) m ρ)

end Cert.KernelIdeal.Whole

end
-- ==== Proof.RefStages.lean ====
/-
  The reference program's stages read at an index: each host operation of the jnp attention layer as a function of
  its operands, composed down to the two results, which are the row function at every batch and query position.
-/
import proofs.«402941_j47433618817588_3_alg».proof.Proof.Gen.ReferenceIdeal.Run
import proofs.«402941_j47433618817588_3_alg».proof.Proof.Gen.ReferenceIdeal.Read
import proofs.«402941_j47433618817588_3_alg».proof.Proof.AttnRow
import Idealize.ShloMosaic.PureOps.Reduce
import Idealize.ShloMosaic.PureOps.Ideal.Laws

set_option maxRecDepth 16384

noncomputable section

namespace Cert.ReferenceIdeal.Stages

open Cert.ReferenceIdeal Cert.ReferenceIdeal.Gen Cert.ReferenceIdeal.Read Idealize.ShloMosaic Idealize.ShloMosaic.ValueIdx

variable (x0 x1 x2 : (⟨S8x2048x1024, .f32⟩ : BufTy).Contents (Elt Ideal)) (x3 : (⟨S8x2048x2048, .i1⟩ : BufTy).Contents (Elt Ideal))
  (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-! ## The three linear layers: a stage's entry (b, p, e) is the projection of input row (b, p) at feature e -/

section Proj

variable (x : (⟨S8x2048x1024, .f32⟩ : BufTy).Contents (Elt Ideal)) (w : (⟨S1024x1024, .f32⟩ : BufTy).Contents (Elt Ideal))
  (β : (⟨S1024, .f32⟩ : BufTy).Contents (Elt Ideal))

theorem query_proj (b : Fin 8) (p : Fin 2048) (e : Fin 1024) :
    val_main_v3 (F := Ideal) x w β (ix3 b p e) = Attn.projRow (fun d => x (ix3 b p d)) w β e := by
  have hl : ∀ d : Fin 1024, lidx_main_v0 (ix3 b p e) d = ix3 b p d := fun d =>
    funext fun a => Fin.ext (by match a with | ⟨0, _⟩ => rfl | ⟨1, _⟩ => rfl | ⟨2, _⟩ => rfl)
  have hr : ∀ d : Fin 1024, ridx_main_v0 (ix3 b p e) d = ix2 d e := fun d =>
    funext fun a => Fin.ext (by match a with | ⟨0, _⟩ => rfl | ⟨1, _⟩ => rfl)
  have hb : idx_main_v1 (idx_main_v2 (ix3 b p e)) = ix1 e :=
    funext fun a => Fin.ext (by match a with | ⟨0, _⟩ => rfl)
  rw [val_main_v3_apply, val_main_v0_apply, val_main_v2_apply, val_main_v1_apply]
  simp only [hl, hr, hb, Ideal.addf_def]
  rfl

theorem key_proj (b : Fin 8) (p : Fin 2048) (e : Fin 1024) :
    val_main_v7 (F := Ideal) x w β (ix3 b p e) = Attn.projRow (fun d => x (ix3 b p d)) w β e := by
  have hl : ∀ d : Fin 1024, lidx_main_v4 (ix3 b p e) d = ix3 b p d := fun d =>
    funext fun a => Fin.ext (by match a with | ⟨0, _⟩ => rfl | ⟨1, _⟩ => rfl | ⟨2, _⟩ => rfl)
  have hr : ∀ d : Fin 1024, ridx_main_v4 (ix3 b p e) d = ix2 d e := fun d =>
    funext fun a => Fin.ext (by match a with | ⟨0, _⟩ => rfl | ⟨1, _⟩ => rfl)
  have hb : idx_main_v5 (idx_main_v6 (ix3 b p e)) = ix1 e :=
    funext fun a => Fin.ext (by match a with | ⟨0, _⟩ => rfl)
  rw [val_main_v7_apply, val_main_v4_apply, val_main_v6_apply, val_main_v5_apply]
  simp only [hl, hr, hb, Ideal.addf_def]
  rfl

theorem value_proj (b : Fin 8) (p : Fin 2048) (e : Fin 1024) :
    val_main_v11 (F := Ideal) x w β (ix3 b p e) = Attn.projRow (fun d => x (ix3 b p d)) w β e := by
  have hl : ∀ d : Fin 1024, lidx_main_v8 (ix3 b p e) d = ix3 b p d := fun d =>
    funext fun a => Fin.ext (by match a with | ⟨0, _⟩ => rfl | ⟨1, _⟩ => rfl | ⟨2, _⟩ => rfl)
  have hr : ∀ d : Fin 1024, ridx_main_v8 (ix3 b p e) d = ix2 d e := fun d =>
    funext fun a => Fin.ext (by match a with | ⟨0, _⟩ => rfl | ⟨1, _⟩ => rfl)
  have hb : idx_main_v9 (idx_main_v10 (ix3 b p e)) = ix1 e :=
    funext fun a => Fin.ext (by match a with | ⟨0, _⟩ => rfl)
  rw [val_main_v11_apply, val_main_v8_apply, val_main_v10_apply, val_main_v9_apply]
  simp only [hl, hr, hb, Ideal.addf_def]
  rfl

end Proj

/-! ## The logits -/

/-- The row of logits of query row (b, q): the specification's, on the projected query row, batch b's projected keys
    and mask row (b, q). -/
abbrev logits (b : Fin 8) (q : Fin 2048) : Fin 2048 → EReal :=
  Attn.logitRow (Attn.projRow (fun d => x0 (ix3 b q d)) x4 x5) (Attn.projMat x1 x6 x7 b) (fun k => x3 (ix3 b q k))

theorem logit_at (b : Fin 8) (q k : Fin 2048) :
    val_main_v15 (F := Ideal) x0 x1 x3 x4 x5 x6 x7 (ix3 b q k) = logits x0 x1 x3 x4 x5 x6 x7 b q k := by
  have hl : ∀ e : Fin 1024, lidx_main_v12 (ix3 b q k) e = ix3 b q e := fun e =>
    funext fun a => Fin.ext (by match a with | ⟨0, _⟩ => rfl | ⟨1, _⟩ => rfl | ⟨2, _⟩ => rfl)
  have hr : ∀ e : Fin 1024, ridx_main_v12 (ix3 b q k) e = ix3 b k e := fun e =>
    funext fun a => Fin.ext (by match a with | ⟨0, _⟩ => rfl | ⟨1, _⟩ => rfl | ⟨2, _⟩ => rfl)
  rw [val_main_v15_apply, val_main_v13_apply, val_main_v12_apply, val_main_call0_v0_apply, val_main_cst_apply,
    val_main_v14_apply, val_main_cst_0_apply]
  simp only [hl, hr, query_proj, key_proj, Ideal.hostDivf_def, Ideal.ofBits_def]
  rfl

/-! ## The row maximum -/

theorem max_at (b : Fin 8) (q : Fin 2048) :
    val_main_v18 (F := Ideal) x0 x1 x3 x4 x5 x6 x7 (ix2 b q) = Attn.rowMax (logits x0 x1 x3 x4 x5 x6 x7 b q) := by
  have hred : S8x2048x2048.Reduces [2] S8x2048 := by decide
  have hrow : (val_main_v15 (F := Ideal) x0 x1 x3 x4 x5 x6 x7) ∘ hred.lift (ix2 b q) = logits x0 x1 x3 x4 x5 x6 x7 b q :=
    funext fun (k : Fin 2048) => by
      have hi : hred.lift (ix2 b q) k = ix3 b q k :=
        funext fun a => Fin.ext (by match a with | ⟨0, _⟩ => rfl | ⟨1, _⟩ => rfl | ⟨2, _⟩ => rfl)
      exact (congrArg (val_main_v15 (F := Ideal) x0 x1 x3 x4 x5 x6 x7) hi).trans (logit_at x0 x1 x3 x4 x5 x6 x7 b q k)
  rw [val_main_v18_apply, val_main_v17_apply, val_main_cst_2_apply]
  unfold val_main_v16
  rw [Host.reduce_eq_fold_single _ _ _ _ hred, hrow, val_main_cst_1_apply]
  simp only [Ideal.maximumf_def, Ideal.ofBits_def]
  exact Attn.max_fold_max Finset.univ Attn.negInf (logits x0 x1 x3 x4 x5 x6 x7 b q)

/-! ## The exponentials, their sum, and the weights -/

theorem exp_at (b : Fin 8) (q k : Fin 2048) :
    val_main_v22 (F := Ideal) x0 x1 x3 x4 x5 x6 x7 (ix3 b q k)
      = Ideal.exp (logits x0 x1 x3 x4 x5 x6 x7 b q k - Attn.rowMax (logits x0 x1 x3 x4 x5 x6 x7 b q)) := by
  have hm : idx_main_v19 (idx_main_v20 (ix3 b q k)) = ix2 b q :=
    funext fun a => Fin.ext (by match a with | ⟨0, _⟩ => rfl | ⟨1, _⟩ => rfl)
  rw [val_main_v22_apply, val_main_v21_apply, val_main_v20_apply, val_main_v19_apply, hm, max_at, logit_at]
  simp only [Ideal.hostUnary_exp_def, Ideal.subf_def]

theorem sum_at (b : Fin 8) (q : Fin 2048) :
    val_main_v23 (F := Ideal) x0 x1 x3 x4 x5 x6 x7 (ix2 b q)
      = ∑ k : Fin 2048, Ideal.exp (logits x0 x1 x3 x4 x5 x6 x7 b q k - Attn.rowMax (logits x0 x1 x3 x4 x5 x6 x7 b q)) := by
  have hi : ∀ k : Fin 2048, idx_main_v23 (ix2 b q) k = ix3 b q k := fun k =>
    funext fun a => Fin.ext (by match a with | ⟨0, _⟩ => rfl | ⟨1, _⟩ => rfl | ⟨2, _⟩ => rfl)
  rw [val_main_v23_apply, val_main_cst_3_apply]
  simp only [hi, exp_at, Ideal.ofBits_def, Ideal.ofBits_zero_f32, zero_add]

theorem weights_at (b : Fin 8) (q k : Fin 2048) :
    val_main_v26 (F := Ideal) x0 x1 x3 x4 x5 x6 x7 (ix3 b q k)
      = Attn.weightsRow (fun d => x0 (ix3 b q d)) x4 x5 (Attn.projMat x1 x6 x7 b) (fun k' => x3 (ix3 b q k')) k := by
  have hs : idx_main_v24 (idx_main_v25 (ix3 b q k)) = ix2 b q :=
    funext fun a => Fin.ext (by match a with | ⟨0, _⟩ => rfl | ⟨1, _⟩ => rfl)
  rw [val_main_v26_apply, val_main_v25_apply, val_main_v24_apply, hs, sum_at, exp_at]
  simp only [Ideal.hostDivf_def]
  rfl

theorem weights_eq : val_main_v26 (F := Ideal) x0 x1 x3 x4 x5 x6 x7 = Attn.weightsArr x0 x1 x3 x4 x5 x6 x7 := by
  funext i
  obtain ⟨b, q, k, rfl⟩ : ∃ (b : Fin 8) (q k : Fin 2048), i = ix3 b q k := ⟨i 0, i 1, i 2, eq_ix3 i⟩
  exact weights_at x0 x1 x3 x4 x5 x6 x7 b q k

theorem out_eq : val_main_v27 (F := Ideal) x0 x1 x2 x3 x4 x5 x6 x7 x8 x9 = Attn.outArr x0 x1 x2 x3 x4 x5 x6 x7 x8 x9 := by
  funext i
  obtain ⟨b, q, e, rfl⟩ : ∃ (b : Fin 8) (q : Fin 2048) (e : Fin 1024), i = ix3 b q e := ⟨i 0, i 1, i 2, eq_ix3 i⟩
  have hl : ∀ k : Fin 2048, lidx_main_v27 (ix3 b q e) k = ix3 b q k := fun k =>
    funext fun a => Fin.ext (by match a with | ⟨0, _⟩ => rfl | ⟨1, _⟩ => rfl | ⟨2, _⟩ => rfl)
  have hr : ∀ k : Fin 2048, ridx_main_v27 (ix3 b q e) k = ix3 b k e := fun k =>
    funext fun a => Fin.ext (by match a with | ⟨0, _⟩ => rfl | ⟨1, _⟩ => rfl | ⟨2, _⟩ => rfl)
  rw [val_main_v27_apply]
  simp only [hl, hr, weights_at, value_proj]
  rfl

end Cert.ReferenceIdeal.Stages

end
-- ==== Proof.lean ====
/-
  A self-attention layer (batch 8, 2048 positions, 1024 features) as two pipelined kernel calls, against the same layer
  written in jnp, over the extended reals.

  The kernel program projects the key and value inputs in one stacked call (two layers side by side over a grid of
  2 × 16 blocks of 1024 rows), then, per batch and per block of 256 query rows, projects the query block, scores it
  against that batch's 2048 projected keys, replaces the scores the mask clears by the word of -1e32, scales by 2⁻⁵, takes
  the softmax of each row against its maximum, writes the weights, and writes their combination of the projected value
  rows. The reference computes the three projections, the scores, the same replacement, a division by 32, jax's
  softmax (a maximum folded from -∞, exponentials, their sum, a division) and the combination, on whole arrays.

  At the extended reals a change of float format is the identity, so the two programs differ only in how they cut and
  re-lay the arrays and in the scale, and multiplying by 2⁻⁵ is dividing by 32 at every extended real (finiteness of
  the inputs is never needed). Both results — the output and the attention weights — are one row function (Proof/AttnRow.lean)
  at every batch and query position: the kernel's side is Proof/KernelValue.lean (the run's final contents, the two calls'
  output arrays as functions of what they read, the host operations between them), the reference's Proof/RefStages.lean
  (its stages read one at a time). The three frames are the generated ones; `preserves` has no entry.
-/
import proofs.«402941_j47433618817588_3_alg».proof.Defs
import proofs.«402941_j47433618817588_3_alg».proof.Proof.Gen.Kernel
import proofs.«402941_j47433618817588_3_alg».proof.Proof.Gen.Kernel.Frame
import proofs.«402941_j47433618817588_3_alg».proof.Proof.Gen.KernelIdeal
import proofs.«402941_j47433618817588_3_alg».proof.Proof.Gen.KernelIdeal.Frame
import proofs.«402941_j47433618817588_3_alg».proof.Proof.Gen.ReferenceIdeal
import proofs.«402941_j47433618817588_3_alg».proof.Proof.Gen.ReferenceIdeal.Run
import proofs.«402941_j47433618817588_3_alg».proof.Proof.Gen.ReferenceIdeal.Read
import proofs.«402941_j47433618817588_3_alg».proof.Proof.Gen.Pre_finite_inputs
import proofs.«402941_j47433618817588_3_alg».proof.Proof.KernelValue
import proofs.«402941_j47433618817588_3_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel call: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing in this kernel. -/
theorem preserves : Cert.preserves_Kernel_KernelIdeal := trivial

/-- Both programs end with the layer's output and weights of their arguments, and the arguments agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v27_eq, Cert.ReferenceIdeal.Stages.out_eq, a0, a1, a2, a3, a4, a5, a6, a7, a8, a9]
  · obtain ⟨a0, a1, a2, a3, a4, a5, a6, a7, a8, a9⟩ := hagree c
    rw [Cert.ReferenceIdeal.Read.val_main_v26_eq, Cert.ReferenceIdeal.Stages.weights_eq, a0, a1, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
